-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S8x128x2 : Shape := ⟨3, ![8, 128, 2]⟩
abbrev S1026x512 : Shape := ⟨2, ![1026, 512]⟩
abbrev S512 : Shape := ⟨1, ![512]⟩
abbrev S512x256 : Shape := ⟨2, ![512, 256]⟩
abbrev S256 : Shape := ⟨1, ![256]⟩
abbrev S256x4 : Shape := ⟨2, ![256, 4]⟩
abbrev S4 : Shape := ⟨1, ![4]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S8x128x2 : S_.BroadcastsInDim S8x128x2 (![] : Fin 0 → Fin S8x128x2.rank)
  reducesTo_S8x128x2_S_d0_1_2 : S8x128x2.ReducesTo [0, 1, 2] S_
  bcast_S_S1026x512 : S_.BroadcastsInDim S1026x512 (![] : Fin 0 → Fin S1026x512.rank)
  reducesTo_S1026x512_S_d0_1 : S1026x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S256x4 .f32) (main_arg7 : FVec F S4 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x4 .f32 := Host.absf main_arg6
  let main_cst_10 : FVec F S_ .f32 := constant S_ .f32 0x7F800000#32
  let main_v30 : FVec F S256x4 .f32 := broadcastInDim S256x4 ![] bcast_S_S256x4 main_cst_10
  let main_v31 : IVec S256x4 1 := cmpf .olt main_v29 main_v30
  let main_c_11 : IVec S_ 1 := constantI S_ 1 1#1
  let main_v32 : IVec S_ 1 := (fun x v => Host.reduce IntOp.andi x v reducesTo_S256x4_S_d0_1 h_S_) main_v31 main_c_11
  let main_v33 : IVec S_ 1 := andi main_v28 main_v32
  fn_part2 (F := F) main_arg7 main_v33

def fn {F : FTy → Type} [FloatOps F] (main_arg0 : FVec F S8x128x512 .f32) (main_arg1 : FVec F S8x128x2 .f32) (main_arg2 : FVec F S1026x512 .f32) (main_arg3 : FVec F S512 .f32) (main_arg4 : FVec F S512x256 .f32) (main_arg5 : FVec F S256 .f32) (main_arg6 : FVec F S256x4 .f32) (main_arg7 : FVec F S4 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x128x2 .f32 := Host.absf main_arg1
  let main_cst_0 : FVec F S_ .f32 := constant S_ .f32 0x7F800000#32
  let main_v5 : FVec F S8x128x2 .f32 := broadcastInDim S8x128x2 ![] bcast_S_S8x128x2 main_cst_0
  let main_v6 : IVec S8x128x2 1 := cmpf .olt main_v4 main_v5
  let main_c_1 : IVec S_ 1 := constantI S_ 1 1#1
  let main_v7 : IVec S_ 1 := (fun x v => Host.reduce IntOp.andi x v reducesTo_S8x128x2_S_d0_1_2 h_S_) main_v6 main_c_1
  let main_v8 : IVec S_ 1 := andi main_v3 main_v7
  let main_v9 : FVec F S1026x512 .f32 := Host.absf main_arg2
  let main_cst_2 : FVec F S_ .f32 := constant S_ .f32 0x7F800000#32
  let main_v10 : FVec F S1026x512 .f32 := broadcastInDim S1026x512 ![] bcast_S_S1026x512 main_cst_2
  let main_v11 : IVec S1026x512 1 := cmpf .olt main_v9 main_v10
  let main_c_3 : IVec S_ 1 := constantI S_ 1 1#1
  let main_v12 : IVec S_ 1 := (fun x v => Host.reduce IntOp.andi x v reducesTo_S1026x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x128x512 : Shape := ⟨3, ![8, 128, 512]⟩
abbrev S8x128x2 : Shape := ⟨3, ![8, 128, 2]⟩
abbrev S1026x512 : Shape := ⟨2, ![1026, 512]⟩
abbrev S512 : Shape := ⟨1, ![512]⟩
abbrev S512x256 : Shape := ⟨2, ![512, 256]⟩
abbrev S256 : Shape := ⟨1, ![256]⟩
abbrev S256x4 : Shape := ⟨2, ![256, 4]⟩
abbrev S4 : Shape := ⟨1, ![4]⟩
abbrev S8x128x128x4 : Shape := ⟨4, ![8, 128, 128, 4]⟩
abbrev S1x128x512 : Shape := ⟨3, ![1, 128, 512]⟩
abbrev S1x32x512 : Shape := ⟨3, ![1, 32, 512]⟩
abbrev S1x128x2 : Shape := ⟨3, ![1, 128, 2]⟩
abbrev S1x32x2 : Shape := ⟨3, ![1, 32, 2]⟩
abbrev S1x128x32x4 : Shape := ⟨4, ![1, 128, 32, 4]⟩
abbrev S512x512 : Shape := ⟨2, ![512, 512]⟩
abbrev S2x512 : Shape := ⟨2, ![2, 512]⟩
abbrev S128x512 : Shape := ⟨2, ![128, 512]⟩
abbrev S32x512 : Shape := ⟨2, ![32, 512]⟩
abbrev S128x2 : Shape := ⟨2, ![128, 2]⟩
abbrev S32x2 : Shape := ⟨2, ![32, 2]⟩
abbrev S128x1x2 : Shape := ⟨3, ![128, 1, 2]⟩
abbrev S128x32x2 : Shape := ⟨3, ![128, 32, 2]⟩
abbrev S4096x2 : Shape := ⟨2, ![4096, 2]⟩
abbrev S4096x512 : Shape := ⟨2, ![4096, 512]⟩
abbrev S128x32x512 : Shape := ⟨3, ![128, 32, 512]⟩
abbrev S128x1x512 : Shape := ⟨3, ![128, 1, 512]⟩
abbrev S1x1x512 : Shape := ⟨3, ![1, 1, 512]⟩
abbrev S4096x256 : Shape := ⟨2, ![4096, 256]⟩
abbrev S1x256 : Shape := ⟨2, ![1, 256]⟩
abbrev S4096x4 : Shape := ⟨2, ![4096, 4]⟩
abbrev S1x4 : Shape := ⟨2, ![1, 4]⟩
abbrev S128x32x4 : Shape := ⟨3, ![128, 32, 4]⟩

abbrev nBuf : Space → Nat
  | .hbm => 9
  | .vmem => 16
  | .smem => 0
  | _ => 0

abbrev bufTy : (tb : Table) → Fin (tcTables nBuf tb) → BufTy
  | .hbm, ⟨0, _⟩ => ⟨S8x128x512, .f32⟩
  | .hbm, ⟨1, _⟩ => ⟨S8x128x2, .f32⟩
  | .hbm, ⟨2, _⟩ => ⟨S1026x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x4, .f32⟩
  | .hbm, ⟨7, _⟩ => ⟨S4, .f32⟩
  | .hbm, ⟨8, _⟩ => ⟨S8x128x128x4, .f32⟩
  | .local _ .vmem, ⟨0, _⟩ => ⟨S1x128x512, .f32⟩
  | .local _ .vmem, ⟨1, _⟩ => ⟨S1x128x512, .f32⟩
  | .local _ .vmem, ⟨2, _⟩ => ⟨S1x32x512, .f32⟩
  | .local _ .vmem, ⟨3, _⟩ => ⟨S1x32x512, .f32⟩
  | .local _ .vmem, ⟨4, _⟩ => ⟨S1x128x2, .f32⟩
  | .local _ .vmem, ⟨5, _⟩ => ⟨S1x128x2, .f32⟩
  | .local _ .vmem, ⟨6, _⟩ => ⟨S1x32x2, .f32⟩
  | .local _ .vmem, ⟨7, _⟩ => ⟨S1x32x2, .f32⟩
  | .local _ .vmem, ⟨8, _⟩ => ⟨S1026x512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256x4, .f32⟩
  | .local _ .vmem, ⟨13, _⟩ => ⟨S4, .f32⟩
  | .local _ .vmem, ⟨14, _⟩ => ⟨S1x128x32x4, .f32⟩
  | .local _ .vmem, ⟨15, _⟩ => ⟨S1x128x32x4, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1026x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x32x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S1026x512_S512x512_0_0 : ∀ a, (![0, 0] : Fin 2 → Nat) a + S512x512.size a ≤ S1026x512.size a
  h_S512x512 : 0 < S512x512.numel
  inb_S1026x512_S512x512_512_0 : ∀ a, (![512, 0] : Fin 2 → Nat) a + S512x512.size a ≤ S1026x512.size a
  inb_S1026x512_S2x512_1024_0 : ∀ a, (![1024, 0] : Fin 2 → Nat) a + S2x512.size a ≤ S1026x512.size a
  h_S2x512 : 0 < S2x512.numel
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S1x32x2_S1x32x2_0_0_0 : ∀ a, (![0, 0, 0] : Fin 3 → Nat) a + S1x32x2.size a ≤ S1x32x2.size a
  h_S1x32x2 : 0 < S1x32x2.numel
  shapeCasts_S1x32x2_S32x2 : S1x32x2.ShapeCasts S32x2
  bitsLt_bf16_f32 : FTy.bits .bf16 < FTy.bits .f32
  shapeCasts_S128x2_S128x1x2 : S128x2.ShapeCasts S128x1x2
  shapeCasts_S32x2_S1x32x2 : S32x2.ShapeCasts S1x32x2
  broadcasts_S128x1x2_S128x32x2 : S128x1x2.Broadcasts S128x32x2
  broadcasts_S1x32x2_S128x32x2 : S1x32x2.Broadcasts S128x32x2
  shapeCasts_S128x32x2_S4096x2 : S128x32x2.ShapeCasts S4096x2
  shapeCasts_S4096x512_S128x32x512 : S4096x512.ShapeCasts S128x32x512
  inb_S512_S512_0 : ∀ a, (![0] : Fin 1 → Nat) a + S512.size a ≤ S512.size a
  h_S512 : 0 < S512.numel
  shapeCasts_S128x512_S128x1x512 : S128x512.ShapeCasts S128x1x512
  shapeCasts_S32x512_S1x32x512 : S32x512.ShapeCasts S1x32x512
  broadcasts_S128x1x512_S128x32x512 : S128x1x512.Broadcasts S128x32x512
  broadcasts_S1x32x512_S128x32x512 : S1x32x512.Broadcasts S128x32x512
  shapeCasts_S512_S1x1x512 : S512.ShapeCasts S1x1x512
  broadcasts_S1x1x512_S128x32x512 : S1x1x512.Broadcasts S128x32x512
  shapeCasts_S128x32x512_S4096x512 : S128x32x512.ShapeCasts S4096x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  shapeCasts_S4096x4_S128x32x4 : S4096x4.ShapeCasts S128x32x4
  inb_S1x128x32x4_S1x128x32x4_0_0_0_0 : ∀ a, (![0, 0, 0, 0] : Fin 4 → Nat) a + S1x128x32x4.size a ≤ S1x128x32x4.size a
  h_S1x128x32x4 : 0 < S1x128x32x4.numel
  shapeCasts_S1x128x32x4_S128x32x4 : S1x128x32x4.ShapeCasts S128x32x4
  shapeCasts_S128x32x4_S1x128x32x4 : S128x32x4.ShapeCasts S1x128x32x4
  dot_S128x512_S512x512_S128x512_1_0_0_1_n_n_wf : DotDims.WF S128x512 S512x512 S128x512 [1] [0] [0] [1] [] []
  dot_S32x512_S512x512_S32x512_1_0_0_1_n_n_wf : DotDims.WF S32x512 S512x512 S32x512 [1] [0] [0] [1] [] []
  dot_S4096x2_S2x512_S4096x512_1_0_0_1_n_n_wf : DotDims.WF S4096x2 S2x512 S4096x512 [1] [0] [0] [1] [] []
  dot_S4096x512_S512x256_S4096x256_1_0_0_1_n_n_wf : DotDims.WF S4096x512 S512x256 S4096x256 [1] [0] [0] [1] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .f32 = 32 ∨ (Rect.block (s := S8x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x128x512.size a
  hwx0_1 : ∀ i : grid0.Coords, EltTy.bits .f32 = 32 ∨ (Rect.block (s := S8x128x512) S1x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S8x128x2.size a
  hwx0_2 : ∀ i : grid0.Coords, EltTy.bits .f32 = 32 ∨ (Rect.block (s := S8x128x2) S1x128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2.size a ≤ S8x128x2.size a
  hwx0_3 : ∀ i : grid0.Coords, EltTy.bits .f32 = 32 ∨ (Rect.block (s := S8x128x2) S1x32x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1026x512.size a ≤ S1026x512.size a
  hwx0_4 : ∀ i : grid0.Coords, EltTy.bits .f32 = 32 ∨ (Rect.block (s := S1026x512) S1026x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S256x4.size a
  hwx0_8 : ∀ i : grid0.Coords, EltTy.bits .f32 = 32 ∨ (Rect.block (s := S256x4) S256x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4.size a ≤ S4.size a
  hwx0_9 : ∀ i : grid0.Coords, EltTy.bits .f32 = 32 ∨ (Rect.block (s := S4) S4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x32x4.size a ≤ S8x128x128x4.size a
  hwx0_10 : ∀ i : grid0.Coords, EltTy.bits .f32 = 32 ∨ (Rect.block (s := S8x128x128x4) S1x128x32x4.size (cc0_transform_10 i) (hinb0_10 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S4096x2_S2x512_S4096x512_1_0_0_1_n_n : DotDims S4096x2 S2x512 S4096x512 where
  lhsContracting := [1]
  rhsContracting := [0]
  lhsNonContracting := [0]
  rhsNonContracting := [1]
  lhsBatch := []
  rhsBatch := []
  wf := dot_S4096x2_S2x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x32x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1026x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x128x32x4.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x128x512 : Shape := ⟨3, ![8, 128, 512]⟩
abbrev S8x128x2 : Shape := ⟨3, ![8, 128, 2]⟩
abbrev S1026x512 : Shape := ⟨2, ![1026, 512]⟩
abbrev S512 : Shape := ⟨1, ![512]⟩
abbrev S512x256 : Shape := ⟨2, ![512, 256]⟩
abbrev S256 : Shape := ⟨1, ![256]⟩
abbrev S256x4 : Shape := ⟨2, ![256, 4]⟩
abbrev S4 : Shape := ⟨1, ![4]⟩
abbrev S512x512 : Shape := ⟨2, ![512, 512]⟩
abbrev S2x512 : Shape := ⟨2, ![2, 512]⟩
abbrev S8x128x1x2 : Shape := ⟨4, ![8, 128, 1, 2]⟩
abbrev S8x1x128x2 : Shape := ⟨4, ![8, 1, 128, 2]⟩
abbrev S8x128x128x2 : Shape := ⟨4, ![8, 128, 128, 2]⟩
abbrev S8x128x1x512 : Shape := ⟨4, ![8, 128, 1, 512]⟩
abbrev S8x1x128x512 : Shape := ⟨4, ![8, 1, 128, 512]⟩
abbrev S8x128x128x512 : Shape := ⟨4, ![8, 128, 128, 512]⟩
abbrev S1x1x1x512 : Shape := ⟨4, ![1, 1, 1, 512]⟩
abbrev S_ : Shape := ⟨0, ![]⟩
abbrev S8x128x128x256 : Shape := ⟨4, ![8, 128, 128, 256]⟩
abbrev S1x1x1x256 : Shape := ⟨4, ![1, 1, 1, 256]⟩
abbrev S8x128x128x4 : Shape := ⟨4, ![8, 128, 128, 4]⟩
abbrev S1x1x1x4 : Shape := ⟨4, ![1, 1, 1, 4]⟩

abbrev nBuf : Space → Nat
  | .hbm => 42
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x2, .f32⟩
  | .hbm, ⟨2, _⟩ => ⟨S1026x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x4, .f32⟩
  | .hbm, ⟨7, _⟩ => ⟨S4, .f32⟩
  | .hbm, ⟨8, _⟩ => ⟨S512x512, .f32⟩
  | .hbm, ⟨9, _⟩ => ⟨S512x512, .f32⟩
  | .hbm, ⟨10, _⟩ => ⟨S2x512, .f32⟩
  | .hbm, ⟨11, _⟩ => ⟨S8x128x512, .f32⟩
  | .hbm, ⟨12, _⟩ => ⟨S8x128x512, .f32⟩
  | .hbm, ⟨13, _⟩ => ⟨S8x128x1x2, .f32⟩
  | .hbm, ⟨14, _⟩ => ⟨S8x1x128x2, .f32⟩
  | .hbm, ⟨15, _⟩ => ⟨S8x128x128x2, .f32⟩
  | .hbm, ⟨16, _⟩ => ⟨S8x128x128x2, .f32⟩
  | .hbm, ⟨17, _⟩ => ⟨S8x128x128x2, .f32⟩
  | .hbm, ⟨18, _⟩ => ⟨S8x128x1x512, .f32⟩
  | .hbm, ⟨19, _⟩ => ⟨S8x1x128x512, .f32⟩
  | .hbm, ⟨20, _⟩ => ⟨S8x128x128x512, .f32⟩
  | .hbm, ⟨21, _⟩ => ⟨S8x128x128x512, .f32⟩
  | .hbm, ⟨22, _⟩ => ⟨S8x128x128x512, .f32⟩
  | .hbm, ⟨23, _⟩ => ⟨S8x128x128x512, .f32⟩
  | .hbm, ⟨24, _⟩ => ⟨S8x128x128x512, .f32⟩
  | .hbm, ⟨25, _⟩ => ⟨S1x1x1x512, .f32⟩
  | .hbm, ⟨26, _⟩ => ⟨S8x128x128x512, .f32⟩
  | .hbm, ⟨27, _⟩ => ⟨S8x128x128x512, .f32⟩
  | .hbm, ⟨28, _⟩ => ⟨S_, .f32⟩
  | .hbm, ⟨29, _⟩ => ⟨S8x128x128x512, .f32⟩
  | .hbm, ⟨30, _⟩ => ⟨S8x128x128x512, .f32⟩
  | .hbm, ⟨31, _⟩ => ⟨S8x128x128x256, .f32⟩
  | .hbm, ⟨32, _⟩ => ⟨S1x1x1x256, .f32⟩
  | .hbm, ⟨33, _⟩ => ⟨S8x128x128x256, .f32⟩
  | .hbm, ⟨34, _⟩ => ⟨S8x128x128x256, .f32⟩
  | .hbm, ⟨35, _⟩ => ⟨S_, .f32⟩
  | .hbm, ⟨36, _⟩ => ⟨S8x128x128x256, .f32⟩
  | .hbm, ⟨37, _⟩ => ⟨S8x128x128x256, .f32⟩
  | .hbm, ⟨38, _⟩ => ⟨S8x128x128x4, .f32⟩
  | .hbm, ⟨39, _⟩ => ⟨S1x1x1x4, .f32⟩
  | .hbm, ⟨40, _⟩ => ⟨S8x128x128x4, .f32⟩
  | .hbm, ⟨41, _⟩ => ⟨S8x128x128x4, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S1026x512_S512x512_0_0 : S1026x512.Slices ![0, 0] S512x512
  slices_S1026x512_S512x512_512_0 : S1026x512.Slices ![512, 0] S512x512
  slices_S1026x512_S2x512_1024_0 : S1026x512.Slices ![1024, 0] S2x512
  bcast_S8x128x2_S8x128x1x2_0_1_3 : S8x128x2.BroadcastsInDim S8x128x1x2 (![0, 1, 3] : Fin 3 → Fin S8x128x1x2.rank)
  bcast_S8x128x2_S8x1x128x2_0_2_3 : S8x128x2.BroadcastsInDim S8x1x128x2 (![0, 2, 3] : Fin 3 → Fin S8x1x128x2.rank)
  bcast_S8x128x1x2_S8x128x128x2_0_1_2_3 : S8x128x1x2.BroadcastsInDim S8x128x128x2 (![0, 1, 2, 3] : Fin 4 → Fin S8x128x128x2.rank)
  bcast_S8x1x128x2_S8x128x128x2_0_1_2_3 : S8x1x128x2.BroadcastsInDim S8x128x128x2 (![0, 1, 2, 3] : Fin 4 → Fin S8x128x128x2.rank)
  bcast_S8x128x512_S8x128x1x512_0_1_3 : S8x128x512.BroadcastsInDim S8x128x1x512 (![0, 1, 3] : Fin 3 → Fin S8x128x1x512.rank)
  bcast_S8x128x512_S8x1x128x512_0_2_3 : S8x128x512.BroadcastsInDim S8x1x128x512 (![0, 2, 3] : Fin 3 → Fin S8x1x128x512.rank)
  bcast_S8x128x1x512_S8x128x128x512_0_1_2_3 : S8x128x1x512.BroadcastsInDim S8x128x128x512 (![0, 1, 2, 3] : Fin 4 → Fin S8x128x128x512.rank)
  bcast_S8x1x128x512_S8x128x128x512_0_1_2_3 : S8x1x128x512.BroadcastsInDim S8x128x128x512 (![0, 1, 2, 3] : Fin 4 → Fin S8x128x128x512.rank)
  bcast_S512_S1x1x1x512_3 : S512.BroadcastsInDim S1x1x1x512 (![3] : Fin 1 → Fin S1x1x1x512.rank)
  bcast_S1x1x1x512_S8x128x128x512_0_1_2_3 : S1x1x1x512.BroadcastsInDim S8x128x128x512 (![0, 1, 2, 3] : Fin 4 → Fin S8x128x128x512.rank)
  bcast_S_S8x128x128x512 : S_.BroadcastsInDim S8x128x128x512 (![] : Fin 0 → Fin S8x128x128x512.rank)
  bcast_S256_S1x1x1x256_3 : S256.BroadcastsInDim S1x1x1x256 (![3] : Fin 1 → Fin S1x1x1x256.rank)
  bcast_S1x1x1x256_S8x128x128x256_0_1_2_3 : S1x1x1x256.BroadcastsInDim S8x128x128x256 (![0, 1, 2, 3] : Fin 4 → Fin S8x128x128x256.rank)
  bcast_S_S8x128x128x256 : S_.BroadcastsInDim S8x128x128x256 (![] : Fin 0 → Fin S8x128x128x256.rank)
  bcast_S4_S1x1x1x4_3 : S4.BroadcastsInDim S1x1x1x4 (![3] : Fin 1 → Fin S1x1x1x4.rank)
  bcast_S1x1x1x4_S8x128x128x4_0_1_2_3 : S1x1x1x4.BroadcastsInDim S8x128x128x4 (![0, 1, 2, 3] : Fin 4 → Fin S8x128x128x4.rank)
  dot_S8x128x512_S512x512_S8x128x512_2_0_01_1_n_n_wf : DotDims.WF S8x128x512 S512x512 S8x128x512 [2] [0] [0, 1] [1] [] []
  dot_S8x128x128x2_S2x512_S8x128x128x512_3_0_012_1_n_n_wf : DotDims.WF S8x128x128x2 S2x512 S8x128x128x512 [3] [0] [0, 1, 2] [1] [] []
  dot_S8x128x128x512_S512x256_S8x128x128x256_3_0_012_1_n_n_wf : DotDims.WF S8x128x128x512 S512x256 S8x128x128x256 [3] [0] [0, 1, 2] [1] [] []
  dot_S8x128x128x256_S256x4_S8x128x128x4_3_0_012_1_n_n_wf : DotDims.WF S8x128x128x256 S256x4 S8x128x128x4 [3] [0] [0, 1, 2] [1] [] []

variable [Facts₀]

def dot_S8x128x512_S512x512_S8x128x512_2_0_01_1_n_n : DotDims S8x128x512 S512x512 S8x128x512 where
  lhsContracting := [2]
  rhsContracting := [0]
  lhsNonContracting := [0, 1]
  rhsNonContracting := [1]
  lhsBatch := []
  rhsBatch := []
  wf := dot_S8x128x512_S512x512_S8x128x512_2_0_01_1_n_n_wf
def dot_S8x128x128x2_S2x512_S8x128x128x512_3_0_012_1_n_n : DotDims S8x128x128x2 S2x512 S8x128x128x512 where
  lhsContracting := [3]
  rhsContracting := [0]
  lhsNonContracting := [0, 1, 2]
  rhsNonContracting := [1]
  lhsBatch := []
  rhsBatch := []
  wf := dot_S8x128x128x2_S2x512_S8x128x128x512_3_0_012_1_n_n_wf
def dot_S8x128x128x512_S512x256_S8x128x128x256_3_0_012_1_n_n : DotDims S8x128x128x512 S512x256 S8x128x128x256 where
  lhsContracting := [3]
  rhsContracting := [0]
  lhsNonContracting := [0, 1, 2]
  rhsNonContracting := [1]
  lhsBatch := []
  rhsBatch := []
  wf := dot_S8x128x128x512_S512x256_S8x128x128x256_3_0_012_1_n_n_wf
def dot_S8x128x128x256_S256x4_S8x128x128x4_3_0_012_1_n_n : DotDims S8x128x128x256 S256x4 S8x128x128x4 where
  lhsContracting := [3]
  rhsContracting := [0]
  lhsNonContracting := [0, 1, 2]
  rhsNonContracting := [1]
  lhsBatch := []
  rhsBatch := []
  wf := dot_S8x128x128x256_S256x4_S8x128x128x4_3_0_012_1_n_n_wf

class Facts : Prop extends Facts₀ where

variable [Facts]
-- ==== Proof.LibSharedFrame.lean ====
/-
  The frame run of a one-region TensorCore program whose pipeline hands ONE array to several input windows.

  The pipeline's launch holds every distinct array behind the windows whole, at the full share. When two input
  windows read the same array that full share must be dealt among them before the pipeline starts: each window
  fetches its blocks under a fraction of the array, and an output window keeps its own array outright. How the
  shares are dealt is the one extra obligation (`hsplit`); the rest is the plain frame run: the body keeps nothing
  between grid points but the scoped buffers that are no staging buffer, every unscoped buffer that is no window's
  array bypasses the region and is read back unchanged, and every window's array ends at what the write-backs
  of the grid points leave in it (`Dat.arrAt` at the last point).
-/
import Idealize.ShloMosaic.Lib.Pipeline.Frame

noncomputable section

namespace Idealize.ShloMosaic.Pipeline.SharedArrays

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays. The layout facts are those of a launch without the arrays'
    distinctness; `hsplit` deals the distinct arrays, each whole at the region-entry contents `V`, among the
    windows at the shares the proof data name; `hin` / `hout` say that the body's invariant is entered from, and
    gives back, the scoped buffers that are no staging buffer. Every array of the pipeline ends at
    `Dat.arrAt … N`, every other unscoped buffer at its region-entry contents. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedArrays

end
-- ==== Proof.PairFrame.lean ====
/-
  The frame of the idealized kernel: the pair-scoring call runs to the end, faults nowhere, and leaves its eight
  argument arrays as they were; and its result array ends at what the grid points' write-backs leave in it.

  The call is one pipelined region over a grid of 8 batches by 4 tiles of 32 second points. Eleven windows: the
  feature array twice (all 128 rows of the batch; the tile's 32 rows), the position array twice (likewise), the six
  weight and bias arrays whole, and the result array's block `[b, :, 32·jj .. 32·jj+31, :]`. Because two input
  windows read ONE array, that array's ownership has to be dealt between them before the pipeline starts: each of
  the two windows fetches under half of the array's share (an input is only ever read, so any positive share
  serves), and the halves recombine at the end. Nothing else differs from a kernel with distinct arrays: at every
  point each input's staging buffer holds that window's block of the array, the body loads them, stores the whole
  output block once, and the pipeline writes the block back.
-/
import proofs.«182039_j48808008351770_1_alg».proof.Proof.Gen.KernelIdeal.Launch
import proofs.«182039_j48808008351770_1_alg».proof.Proof.Gen.KernelIdeal.Skeleton
import proofs.«182039_j48808008351770_1_alg».proof.Proof.Gen.KernelIdeal.Points
import proofs.«182039_j48808008351770_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.PairFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- The three row blocks of the first weight matrix inside its staging buffer: rows 0..511, 512..1023, 1024..1025. -/
abbrev rTop : Rect S1026x512 := Rect.unit (s := S1026x512) ![0, 0] S512x512.size inb_S1026x512_S512x512_0_0
abbrev rMid : Rect S1026x512 := Rect.unit (s := S1026x512) ![512, 0] S512x512.size inb_S1026x512_S512x512_512_0
abbrev rLast : Rect S1026x512 := Rect.unit (s := S1026x512) ![1024, 0] S2x512.size inb_S1026x512_S2x512_1024_0
/-- Every other buffer is read, and the output buffer written, whole. -/
abbrev rFi : Rect S1x128x512 := Rect.unit (s := S1x128x512) ![0, 0, 0] S1x128x512.size inb_S1x128x512_S1x128x512_0_0_0
abbrev rFj : Rect S1x32x512 := Rect.unit (s := S1x32x512) ![0, 0, 0] S1x32x512.size inb_S1x32x512_S1x32x512_0_0_0
abbrev rPi : Rect S1x128x2 := Rect.unit (s := S1x128x2) ![0, 0, 0] S1x128x2.size inb_S1x128x2_S1x128x2_0_0_0
abbrev rPj : Rect S1x32x2 := Rect.unit (s := S1x32x2) ![0, 0, 0] S1x32x2.size inb_S1x32x2_S1x32x2_0_0_0
abbrev rB1 : Rect S512 := Rect.unit (s := S512) ![0] S512.size inb_S512_S512_0
abbrev rW2 : Rect S512x256 := Rect.unit (s := S512x256) ![0, 0] S512x256.size inb_S512x256_S512x256_0_0
abbrev rB2 : Rect S256 := Rect.unit (s := S256) ![0] S256.size inb_S256_S256_0
abbrev rW3 : Rect S256x4 := Rect.unit (s := S256x4) ![0, 0] S256x4.size inb_S256x4_S256x4_0_0
abbrev rB3 : Rect S4 := Rect.unit (s := S4) ![0] S4.size inb_S4_S4_0
abbrev rOut : Rect S1x128x32x4 := Rect.unit (s := S1x128x32x4) ![0, 0, 0, 0] S1x128x32x4.size inb_S1x128x32x4_S1x128x32x4_0_0_0_0

/-! ## What the body leaves in the output window's buffer -/

/-- The output staging buffer after the body, from the ten input buffers' contents: its one store, of the whole
    block, of the three-layer value of what the body loaded. -/
def outBlock (xFi : Vec F S1x128x512 .f32) (xFj : Vec F S1x32x512 .f32) (xPi : Vec F S1x128x2 .f32) (xPj : Vec F S1x32x2 .f32)
    (xW1 : Vec F S1026x512 .f32) (xB1 : Vec F S512 .f32) (xW2 : Vec F S512x256 .f32) (xB2 : Vec F S256 .f32)
    (xW3 : Vec F S256x4 .f32) (xB3 : Vec F S4 .f32) : Vec F S1x128x32x4 .f32 :=
  View.canon [⟨rOut, k0_pay1 (k0_pay2 (View.ld xW1 rTop) (View.ld xW1 rMid) (View.ld xW1 rLast) (View.ld xFi rFi) (View.ld xFj rFj)
      (View.ld xPi rPi) (View.ld xPj rPj)) (k0_pay3 (View.ld xB1 rB1)) (View.ld xW2 rW2) (View.ld xB2 rB2) (View.ld xW3 rW3) (View.ld xB3 rB3)⟩]

/-- The one store tiles the buffer, so it covers it. -/
theorem outCover (p0 : Vec F S1x128x32x4 .f32) (y : S1x128x32x4.Idx) :
    ∃ pc ∈ ([⟨rOut, p0⟩] : List (View.Piece (Elt F) S1x128x32x4 .f32)), y ∈ pc.1.set :=
  View.cover_of_tiled [⟨rOut, p0⟩] S1x128x32x4.size (by rfl) y

/-! ## @main up to the region, and the windows' blocks -/

/-- Core `c`'s TensorCore buffers when the region is entered: as launched (@main is the region alone). -/
abbrev V (c : Dev nD) (b : Ref sig .tc) : Buf (Elt F) ((c : Thread nD τ).loc b) := m ((c : Thread nD τ).loc b)

/-- @main is the one region: nothing runs before it. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched it
    there or kept it from the point before (the block index has not moved then): for any proof data whose array is
    the region-entry contents and whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the pipeline on core `c`. The arrays are the region-entry contents. After the body at point
    `t` each input's buffer holds its block and the output's holds `outBlock` of the input blocks. The feature
    array is read through two windows (all 128 rows of the batch; the 32 rows of the tile) and so is the position
    array: each of the two windows on one array holds HALF of that array's share, the other six inputs hold theirs
    whole. The body keeps nothing between points but the scoped buffers that are no staging buffer, untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlock (iblk m c 0 t) (iblk m c 1 t) (iblk m c 2 t) (iblk m c 3 t) (iblk m c 4 t) (iblk m c 5 t) (iblk m c 6 t) (iblk m c 7 t) (iblk m c 8 t) (iblk m c 9 t)
  Φ _ := (Pipeline.scopedRest (Ix := Unit) (Name := ℕ) (U := UR sig nD τ) (Lvl := ℕ) (Val := Elt F) spec0 c : sProp 𝕄)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t
    = outBlock (iblk m c 0 t) (iblk m c 1 t) (iblk m c 2 t) (iblk m c 3 t) (iblk m c 4 t) (iblk m c 5 t) (iblk m c 6 t) (iblk m c 7 t) (iblk m c 8 t) (iblk m c 9 t) := by
  dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body's triple -/

set_option maxHeartbeats 4000000 in
/-- The kernel body on whole staging memrefs, the ten inputs' at read contents and the output's at anything, runs
    to the continuation holding the inputs' as they were and the output's at `outBlock` of the inputs': every load
    reads its rectangle of the contents, the one store writes the whole output buffer. -/
theorem sound_kernel (c : Dev nD) (E : Set ℕ) (i : grid0.Coords)
    (a2 : Memref sig .tc .vmem S1x128x512 .f32) (h2 : a2.IsWhole) (a3 : Memref sig .tc .vmem S1x32x512 .f32) (h3 : a3.IsWhole) (a4 : Memref sig .tc .vmem S1x128x2 .f32) (h4 : a4.IsWhole) (a5 : Memref sig .tc .vmem S1x32x2 .f32) (h5 : a5.IsWhole) (a6 : Memref sig .tc .vmem S1026x512 .f32) (h6 : a6.IsWhole) (a7 : Memref sig .tc .vmem S512 .f32) (h7 : a7.IsWhole) (a8 : Memref sig .tc .vmem S512x256 .f32) (h8 : a8.IsWhole) (a9 : Memref sig .tc .vmem S256 .f32) (h9 : a9.IsWhole) (a10 : Memref sig .tc .vmem S256x4 .f32) (h10 : a10.IsWhole) (a11 : Memref sig .tc .vmem S4 .f32) (h11 : a11.IsWhole)
    (a12 : Memref sig .tc .vmem S1x128x32x4 .f32) (h12 : a12.IsWhole)
    (xFi : Vec F S1x128x512 .f32) (xFj : Vec F S1x32x512 .f32) (xPi : Vec F S1x128x2 .f32) (xPj : Vec F S1x32x2 .f32) (xW1 : Vec F S1026x512 .f32) (xB1 : Vec F S512 .f32) (xW2 : Vec F S512x256 .f32) (xB2 : Vec F S256 .f32) (xW3 : Vec F S256x4 .f32) (xB3 : Vec F S4 .f32) (K : PUnit → sProp 𝕄) :
    iprop(owns (c : Thread nD τ) a2 fullShare xFi ∗ owns (c : Thread nD τ) a3 fullShare xFj ∗ owns (c : Thread nD τ) a4 fullShare xPi ∗ owns (c : Thread nD τ) a5 fullShare xPj ∗ owns (c : Thread nD τ) a6 fullShare xW1 ∗ owns (c : Thread nD τ) a7 fullShare xB1 ∗ owns (c : Thread nD τ) a8 fullShare xW2 ∗ owns (c : Thread nD τ) a9 fullShare xB2 ∗ owns (c : Thread nD τ) a10 fullShare xW3 ∗ owns (c : Thread nD τ) a11 fullShare xB3 ∗ (∃ d, owns (c : Thread nD τ) a12 fullShare d)
        ∗ (iprop(owns (c : Thread nD τ) a2 fullShare xFi ∗ owns (c : Thread nD τ) a3 fullShare xFj ∗ owns (c : Thread nD τ) a4 fullShare xPi ∗ owns (c : Thread nD τ) a5 fullShare xPj ∗ owns (c : Thread nD τ) a6 fullShare xW1 ∗ owns (c : Thread nD τ) a7 fullShare xB1 ∗ owns (c : Thread nD τ) a8 fullShare xW2 ∗ owns (c : Thread nD τ) a9 fullShare xB2 ∗ owns (c : Thread nD τ) a10 fullShare xW3 ∗ owns (c : Thread nD τ) a11 fullShare xB3
            ∗ owns (c : Thread nD τ) a12 fullShare (outBlock xFi xFj xPi xPj xW1 xB1 xW2 xB2 xW3 xB3)) -∗ K ⟨⟩))
      ⊢ wp frame (wpE (defs₀ (F := F)) Variants.none c none) E
          (cc0__kernel i a2 h2 a3 h3 a4 h4 a5 h5 a6 h6 a7 h7 a8 h8 a9 h9 a10 h10 a11 h11 a12 h12) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf2 hf3 hf4 hf5 hf6 hf7 hf8 hf9 hf10 hf11
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  sl_unfold_words
  exact View.read_writes_eq_canon _ _ _ (outCover _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the shared arrays' shares -/

/-- The distinct buffers behind the eleven windows' arrays are nine: the eight arguments and the result. -/
theorem arrRefs_listed (Φ : Ref sig .tc → sProp 𝕄) :
    bigSep (Finset.univ.image (Pipeline.arrRef spec0)) Φ
      = iprop(Φ main_arg0 ∗ Φ main_arg1 ∗ Φ main_arg2 ∗ Φ main_arg3 ∗ Φ main_arg4 ∗ Φ main_arg5 ∗ Φ main_arg6 ∗ Φ main_arg7 ∗ Φ main_v0) :=
  bigSep_eq_bigSepL_of_eq [main_arg0, main_arg1, main_arg2, main_arg3, main_arg4, main_arg5, main_arg6, main_arg7, main_v0]
    (by decide) (by decide) Φ

/-- The nine distinct buffers behind the eleven windows' arrays, each whole at the full share, make the pipeline's
    arrays at entry: the feature array's full share is cut into its two halves, one for each of the two windows that
    read it, and so is the position array's; every other buffer goes to its one window whole. -/
theorem hsplit (c : Dev nD) :
    (Pipeline.arrBufs spec0 c (V m c) : sProp 𝕄) ⊢ (dats m 0 c).arrays ((dats m 0 c).arrAt · 0) := by
  have harr : (dats m 0 c).arrays ((dats m 0 c).arrAt · 0)
      = bigSep Finset.univ fun w : Fin 11 =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harr, bigSep_W0]
  unfold Pipeline.arrBufs
  rw [arrRefs_listed]
  iintro ⟨HF, HP, HW1, HB1, HW2, HB2, HW3, HB3, HO⟩
  ihave HF' := (pointsTo_share (PosShare.mem_left_op_right fullShare)).1 $$ HF
  icases HF' with ⟨HFl, HFr⟩
  ihave HP' := (pointsTo_share (PosShare.mem_left_op_right fullShare)).1 $$ HP
  icases HP' with ⟨HPl, HPr⟩
  isplitl [HFl]; · iexact HFl
  isplitl [HFr]; · iexact HFr
  isplitl [HPl]; · iexact HPl
  isplitl [HPr]; · iexact HPr
  isplitl [HW1]; · iexact HW1
  isplitl [HB1]; · iexact HB1
  isplitl [HW2]; · iexact HW2
  isplitl [HB2]; · iexact HB2
  isplitl [HW3]; · iexact HW3
  isplitl [HB3]; · iexact HB3
  iexact HO

/-! ## The run and the frame -/

set_option backward.isDefEq.respectTransparency.types false in
/-- From any memory with zero counters every weakly fair execution of @main terminates, and every final state has
    every array of the pipeline at what the write-backs of the grid points leave in it and every other unscoped buffer
    as the region found it. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The same run with the result array NAMED and the eight argument arrays unchanged: an input window's array is
    never written, so after the last point it is what the region found, which is what was launched. -/
theorem run_named : θ_run defs (onTc (τ := τ) (main (F := F))) ⟨m, fun _ => 0, ρ⟩ (fun r => ∀ c : Dev nD,
      r.2.mem ((c.tc : Thread nD τ).loc main_v0) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 10,
      ((h c).1 0).trans (((dats m 0 c).arrAt_in 0 rfl _).trans (A_eq m c 0)),
      ((h c).1 2).trans (((dats m 0 c).arrAt_in 2 rfl _).trans (A_eq m c 2)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9))⟩) (run_main m ρ)

/-- THE FRAME: every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.KernelIdeal.PairFrame

end
-- ==== Proof.PairFrameWords.lean ====
/-
  The frame of the kernel as printed, at any float instance: the pair-scoring call runs to the end, faults nowhere, and leaves its eight
  argument arrays as they were; and its result array ends at what the grid points' write-backs leave in it.

  The call is one pipelined region over a grid of 8 batches by 4 tiles of 32 second points. Eleven windows: the
  feature array twice (all 128 rows of the batch; the tile's 32 rows), the position array twice (likewise), the six
  weight and bias arrays whole, and the result array's block `[b, :, 32·jj .. 32·jj+31, :]`. Because two input
  windows read ONE array, that array's ownership has to be dealt between them before the pipeline starts: each of
  the two windows fetches under half of the array's share (an input is only ever read, so any positive share
  serves), and the halves recombine at the end. Nothing else differs from a kernel with distinct arrays: at every
  point each input's staging buffer holds that window's block of the array, the body loads them, stores the whole
  output block once, and the pipeline writes the block back.
-/
import proofs.«182039_j48808008351770_1_alg».proof.Proof.Gen.Kernel.Launch
import proofs.«182039_j48808008351770_1_alg».proof.Proof.Gen.Kernel.Skeleton
import proofs.«182039_j48808008351770_1_alg».proof.Proof.Gen.Kernel.Points
import proofs.«182039_j48808008351770_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.PairFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- The three row blocks of the first weight matrix inside its staging buffer: rows 0..511, 512..1023, 1024..1025. -/
abbrev rTop : Rect S1026x512 := Rect.unit (s := S1026x512) ![0, 0] S512x512.size inb_S1026x512_S512x512_0_0
abbrev rMid : Rect S1026x512 := Rect.unit (s := S1026x512) ![512, 0] S512x512.size inb_S1026x512_S512x512_512_0
abbrev rLast : Rect S1026x512 := Rect.unit (s := S1026x512) ![1024, 0] S2x512.size inb_S1026x512_S2x512_1024_0
/-- Every other buffer is read, and the output buffer written, whole. -/
abbrev rFi : Rect S1x128x512 := Rect.unit (s := S1x128x512) ![0, 0, 0] S1x128x512.size inb_S1x128x512_S1x128x512_0_0_0
abbrev rFj : Rect S1x32x512 := Rect.unit (s := S1x32x512) ![0, 0, 0] S1x32x512.size inb_S1x32x512_S1x32x512_0_0_0
abbrev rPi : Rect S1x128x2 := Rect.unit (s := S1x128x2) ![0, 0, 0] S1x128x2.size inb_S1x128x2_S1x128x2_0_0_0
abbrev rPj : Rect S1x32x2 := Rect.unit (s := S1x32x2) ![0, 0, 0] S1x32x2.size inb_S1x32x2_S1x32x2_0_0_0
abbrev rB1 : Rect S512 := Rect.unit (s := S512) ![0] S512.size inb_S512_S512_0
abbrev rW2 : Rect S512x256 := Rect.unit (s := S512x256) ![0, 0] S512x256.size inb_S512x256_S512x256_0_0
abbrev rB2 : Rect S256 := Rect.unit (s := S256) ![0] S256.size inb_S256_S256_0
abbrev rW3 : Rect S256x4 := Rect.unit (s := S256x4) ![0, 0] S256x4.size inb_S256x4_S256x4_0_0
abbrev rB3 : Rect S4 := Rect.unit (s := S4) ![0] S4.size inb_S4_S4_0
abbrev rOut : Rect S1x128x32x4 := Rect.unit (s := S1x128x32x4) ![0, 0, 0, 0] S1x128x32x4.size inb_S1x128x32x4_S1x128x32x4_0_0_0_0

/-! ## What the body leaves in the output window's buffer -/

/-- The output staging buffer after the body, from the ten input buffers' contents: its one store, of the whole
    block, of the three-layer value of what the body loaded. -/
def outBlock (xFi : Vec F S1x128x512 .f32) (xFj : Vec F S1x32x512 .f32) (xPi : Vec F S1x128x2 .f32) (xPj : Vec F S1x32x2 .f32)
    (xW1 : Vec F S1026x512 .f32) (xB1 : Vec F S512 .f32) (xW2 : Vec F S512x256 .f32) (xB2 : Vec F S256 .f32)
    (xW3 : Vec F S256x4 .f32) (xB3 : Vec F S4 .f32) : Vec F S1x128x32x4 .f32 :=
  View.canon [⟨rOut, k0_pay1 (k0_pay2 (View.ld xW1 rTop) (View.ld xW1 rMid) (View.ld xW1 rLast) (View.ld xFi rFi) (View.ld xFj rFj)
      (View.ld xPi rPi) (View.ld xPj rPj)) (k0_pay3 (View.ld xB1 rB1)) (View.ld xW2 rW2) (View.ld xB2 rB2) (View.ld xW3 rW3) (View.ld xB3 rB3)⟩]

/-- The one store tiles the buffer, so it covers it. -/
theorem outCover (p0 : Vec F S1x128x32x4 .f32) (y : S1x128x32x4.Idx) :
    ∃ pc ∈ ([⟨rOut, p0⟩] : List (View.Piece (Elt F) S1x128x32x4 .f32)), y ∈ pc.1.set :=
  View.cover_of_tiled [⟨rOut, p0⟩] S1x128x32x4.size (by rfl) y

/-! ## @main up to the region, and the windows' blocks -/

/-- Core `c`'s TensorCore buffers when the region is entered: as launched (@main is the region alone). -/
abbrev V (c : Dev nD) (b : Ref sig .tc) : Buf (Elt F) ((c : Thread nD τ).loc b) := m ((c : Thread nD τ).loc b)

/-- @main is the one region: nothing runs before it. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched it
    there or kept it from the point before (the block index has not moved then): for any proof data whose array is
    the region-entry contents and whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the pipeline on core `c`. The arrays are the region-entry contents. After the body at point
    `t` each input's buffer holds its block and the output's holds `outBlock` of the input blocks. The feature
    array is read through two windows (all 128 rows of the batch; the 32 rows of the tile) and so is the position
    array: each of the two windows on one array holds HALF of that array's share, the other six inputs hold theirs
    whole. The body keeps nothing between points but the scoped buffers that are no staging buffer, untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlock (iblk m c 0 t) (iblk m c 1 t) (iblk m c 2 t) (iblk m c 3 t) (iblk m c 4 t) (iblk m c 5 t) (iblk m c 6 t) (iblk m c 7 t) (iblk m c 8 t) (iblk m c 9 t)
  Φ _ := (Pipeline.scopedRest (Ix := Unit) (Name := ℕ) (U := UR sig nD τ) (Lvl := ℕ) (Val := Elt F) spec0 c : sProp 𝕄)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t
    = outBlock (iblk m c 0 t) (iblk m c 1 t) (iblk m c 2 t) (iblk m c 3 t) (iblk m c 4 t) (iblk m c 5 t) (iblk m c 6 t) (iblk m c 7 t) (iblk m c 8 t) (iblk m c 9 t) := by
  dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body's triple -/

set_option maxHeartbeats 4000000 in
/-- The kernel body on whole staging memrefs, the ten inputs' at read contents and the output's at anything, runs
    to the continuation holding the inputs' as they were and the output's at `outBlock` of the inputs': every load
    reads its rectangle of the contents, the one store writes the whole output buffer. -/
theorem sound_kernel (c : Dev nD) (E : Set ℕ) (i : grid0.Coords)
    (a2 : Memref sig .tc .vmem S1x128x512 .f32) (h2 : a2.IsWhole) (a3 : Memref sig .tc .vmem S1x32x512 .f32) (h3 : a3.IsWhole) (a4 : Memref sig .tc .vmem S1x128x2 .f32) (h4 : a4.IsWhole) (a5 : Memref sig .tc .vmem S1x32x2 .f32) (h5 : a5.IsWhole) (a6 : Memref sig .tc .vmem S1026x512 .f32) (h6 : a6.IsWhole) (a7 : Memref sig .tc .vmem S512 .f32) (h7 : a7.IsWhole) (a8 : Memref sig .tc .vmem S512x256 .f32) (h8 : a8.IsWhole) (a9 : Memref sig .tc .vmem S256 .f32) (h9 : a9.IsWhole) (a10 : Memref sig .tc .vmem S256x4 .f32) (h10 : a10.IsWhole) (a11 : Memref sig .tc .vmem S4 .f32) (h11 : a11.IsWhole)
    (a12 : Memref sig .tc .vmem S1x128x32x4 .f32) (h12 : a12.IsWhole)
    (xFi : Vec F S1x128x512 .f32) (xFj : Vec F S1x32x512 .f32) (xPi : Vec F S1x128x2 .f32) (xPj : Vec F S1x32x2 .f32) (xW1 : Vec F S1026x512 .f32) (xB1 : Vec F S512 .f32) (xW2 : Vec F S512x256 .f32) (xB2 : Vec F S256 .f32) (xW3 : Vec F S256x4 .f32) (xB3 : Vec F S4 .f32) (K : PUnit → sProp 𝕄) :
    iprop(owns (c : Thread nD τ) a2 fullShare xFi ∗ owns (c : Thread nD τ) a3 fullShare xFj ∗ owns (c : Thread nD τ) a4 fullShare xPi ∗ owns (c : Thread nD τ) a5 fullShare xPj ∗ owns (c : Thread nD τ) a6 fullShare xW1 ∗ owns (c : Thread nD τ) a7 fullShare xB1 ∗ owns (c : Thread nD τ) a8 fullShare xW2 ∗ owns (c : Thread nD τ) a9 fullShare xB2 ∗ owns (c : Thread nD τ) a10 fullShare xW3 ∗ owns (c : Thread nD τ) a11 fullShare xB3 ∗ (∃ d, owns (c : Thread nD τ) a12 fullShare d)
        ∗ (iprop(owns (c : Thread nD τ) a2 fullShare xFi ∗ owns (c : Thread nD τ) a3 fullShare xFj ∗ owns (c : Thread nD τ) a4 fullShare xPi ∗ owns (c : Thread nD τ) a5 fullShare xPj ∗ owns (c : Thread nD τ) a6 fullShare xW1 ∗ owns (c : Thread nD τ) a7 fullShare xB1 ∗ owns (c : Thread nD τ) a8 fullShare xW2 ∗ owns (c : Thread nD τ) a9 fullShare xB2 ∗ owns (c : Thread nD τ) a10 fullShare xW3 ∗ owns (c : Thread nD τ) a11 fullShare xB3
            ∗ owns (c : Thread nD τ) a12 fullShare (outBlock xFi xFj xPi xPj xW1 xB1 xW2 xB2 xW3 xB3)) -∗ K ⟨⟩))
      ⊢ wp frame (wpE (defs₀ (F := F)) Variants.none c none) E
          (cc0__kernel i a2 h2 a3 h3 a4 h4 a5 h5 a6 h6 a7 h7 a8 h8 a9 h9 a10 h10 a11 h11 a12 h12) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf2 hf3 hf4 hf5 hf6 hf7 hf8 hf9 hf10 hf11
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  sl_unfold_words
  exact View.read_writes_eq_canon _ _ _ (outCover _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the shared arrays' shares -/

/-- The distinct buffers behind the eleven windows' arrays are nine: the eight arguments and the result. -/
theorem arrRefs_listed (Φ : Ref sig .tc → sProp 𝕄) :
    bigSep (Finset.univ.image (Pipeline.arrRef spec0)) Φ
      = iprop(Φ main_arg0 ∗ Φ main_arg1 ∗ Φ main_arg2 ∗ Φ main_arg3 ∗ Φ main_arg4 ∗ Φ main_arg5 ∗ Φ main_arg6 ∗ Φ main_arg7 ∗ Φ main_v0) :=
  bigSep_eq_bigSepL_of_eq [main_arg0, main_arg1, main_arg2, main_arg3, main_arg4, main_arg5, main_arg6, main_arg7, main_v0]
    (by decide) (by decide) Φ

/-- The nine distinct buffers behind the eleven windows' arrays, each whole at the full share, make the pipeline's
    arrays at entry: the feature array's full share is cut into its two halves, one for each of the two windows that
    read it, and so is the position array's; every other buffer goes to its one window whole. -/
theorem hsplit (c : Dev nD) :
    (Pipeline.arrBufs spec0 c (V m c) : sProp 𝕄) ⊢ (dats m 0 c).arrays ((dats m 0 c).arrAt · 0) := by
  have harr : (dats m 0 c).arrays ((dats m 0 c).arrAt · 0)
      = bigSep Finset.univ fun w : Fin 11 =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harr, bigSep_W0]
  unfold Pipeline.arrBufs
  rw [arrRefs_listed]
  iintro ⟨HF, HP, HW1, HB1, HW2, HB2, HW3, HB3, HO⟩
  ihave HF' := (pointsTo_share (PosShare.mem_left_op_right fullShare)).1 $$ HF
  icases HF' with ⟨HFl, HFr⟩
  ihave HP' := (pointsTo_share (PosShare.mem_left_op_right fullShare)).1 $$ HP
  icases HP' with ⟨HPl, HPr⟩
  isplitl [HFl]; · iexact HFl
  isplitl [HFr]; · iexact HFr
  isplitl [HPl]; · iexact HPl
  isplitl [HPr]; · iexact HPr
  isplitl [HW1]; · iexact HW1
  isplitl [HB1]; · iexact HB1
  isplitl [HW2]; · iexact HW2
  isplitl [HB2]; · iexact HB2
  isplitl [HW3]; · iexact HW3
  isplitl [HB3]; · iexact HB3
  iexact HO

/-! ## The run and the frame -/

set_option backward.isDefEq.respectTransparency.types false in
/-- From any memory with zero counters every weakly fair execution of @main terminates, and every final state has
    every array of the pipeline at what the write-backs of the grid points leave in it and every other unscoped buffer
    as the region found it. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The same run with the result array NAMED and the eight argument arrays unchanged: an input window's array is
    never written, so after the last point it is what the region found, which is what was launched. -/
theorem run_named : θ_run defs (onTc (τ := τ) (main (F := F))) ⟨m, fun _ => 0, ρ⟩ (fun r => ∀ c : Dev nD,
      r.2.mem ((c.tc : Thread nD τ).loc main_v0) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 10,
      ((h c).1 0).trans (((dats m 0 c).arrAt_in 0 rfl _).trans (A_eq m c 0)),
      ((h c).1 2).trans (((dats m 0 c).arrAt_in 2 rfl _).trans (A_eq m c 2)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9))⟩) (run_main m ρ)

/-- THE FRAME: every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.Kernel.PairFrame

end
-- ==== Proof.PairBlocks.lean ====
/-
  Each window's block at a grid point, as entries of the array behind it.

  Point `t` of the 8 × 4 grid is a batch `b = batchOf t` and a tile `tileOf t` of 32 second points. The first
  feature window's block is the batch's whole `[128, 512]` slab, the second's its rows `32·tile … 32·tile + 31`;
  the two position windows likewise; the six weight and bias windows are their whole arrays at every point; the
  result window's block is `[b, :, 32·tile … 32·tile + 31, :]`. A block's coordinate on an axis is always
  block index × block size + the coordinate inside the block, and the block indices are decided once over the
  32 points.
-/
import proofs.«182039_j48808008351770_1_alg».proof.Proof.PairFrame
import Idealize.ShloMosaic.Lib.Pipeline.Value
import Idealize.ShloMosaic.Lib.ValueIdx

set_option maxRecDepth 16384

noncomputable section

namespace Cert.KernelIdeal.PairValue

open Cert.KernelIdeal Cert.KernelIdeal.Gen Cert.KernelIdeal.PairFrame
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The printed index maps, decided over the 32 points: the result window's block index is (batch, 0, tile, 0) with
    batch ≤ 7 and tile ≤ 3; the whole-slab windows sit at (batch, 0, 0), the tile windows at (batch, tile, 0); the
    weight and bias windows never move. -/
theorem idx_facts : ∀ t : Fin cfg0.N,
    win0_10.index t (0 : Fin 4) ≤ 7 ∧ win0_10.index t (1 : Fin 4) = 0 ∧ win0_10.index t (2 : Fin 4) ≤ 3 ∧ win0_10.index t (3 : Fin 4) = 0
    ∧ win0_0.index t (0 : Fin 3) = win0_10.index t (0 : Fin 4) ∧ win0_0.index t (1 : Fin 3) = 0 ∧ win0_0.index t (2 : Fin 3) = 0
    ∧ win0_1.index t (0 : Fin 3) = win0_10.index t (0 : Fin 4) ∧ win0_1.index t (1 : Fin 3) = win0_10.index t (2 : Fin 4) ∧ win0_1.index t (2 : Fin 3) = 0
    ∧ win0_2.index t (0 : Fin 3) = win0_10.index t (0 : Fin 4) ∧ win0_2.index t (1 : Fin 3) = 0 ∧ win0_2.index t (2 : Fin 3) = 0
    ∧ win0_3.index t (0 : Fin 3) = win0_10.index t (0 : Fin 4) ∧ win0_3.index t (1 : Fin 3) = win0_10.index t (2 : Fin 4) ∧ win0_3.index t (2 : Fin 3) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0 :=
  (by decide +kernel : ∀ t : Fin grid0.N, _)

/-- The batch of point `t`. -/
def batchOf (t : Fin cfg0.N) : Fin 8 := ⟨win0_10.index t (0 : Fin 4), by have := (idx_facts t).1; omega⟩
/-- The tile (of 32 second points) of point `t`. -/
def tileOf (t : Fin cfg0.N) : Fin 4 := ⟨win0_10.index t (2 : Fin 4), by have := (idx_facts t).2.2.1; omega⟩
/-- The second point that is number `j` of point `t`'s tile. -/
def rowOf (t : Fin cfg0.N) (j : Fin 32) : Fin 128 :=
  ⟨32 * win0_10.index t (2 : Fin 4) + j.val, by have := (idx_facts t).2.2.1; have := j.isLt; omega⟩

variable (c : Dev nD) (t : Fin cfg0.N)

/-- The first feature window's block is the batch's slab. -/
theorem fi_apply (i : Fin 128) (d : Fin 512) :
    (iblk m c 0 t : Vec F S1x128x512 .f32) (ix3 (0 : Fin 1) i d) = (V m c main_arg0 : S8x128x512.Idx → Elt F .f32) (ix3 (batchOf t) i d) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = win0_10.index t (0 : Fin 4); omega
  | ⟨1, _⟩ => show win0_0.index t (1 : Fin 3) * 128 + 1 * i.val = i.val; omega
  | ⟨2, _⟩ => show win0_0.index t (2 : Fin 3) * 512 + 1 * d.val = d.val; omega
/-- The second feature window's block is the tile's 32 rows of that slab. -/
theorem fj_apply (j : Fin 32) (d : Fin 512) :
    (iblk m c 1 t : Vec F S1x32x512 .f32) (ix3 (0 : Fin 1) j d) = (V m c main_arg0 : S8x128x512.Idx → Elt F .f32) (ix3 (batchOf t) (rowOf t j) d) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg0 _ = V m c main_arg0 _
  congr 1
  funext a
  apply Fin.ext
  match a with
  | ⟨0, _⟩ => show win0_1.index t (0 : Fin 3) * 1 + 1 * 0 = win0_10.index t (0 : Fin 4); omega
  | ⟨1, _⟩ => show win0_1.index t (1 : Fin 3) * 32 + 1 * j.val = 32 * win0_10.index t (2 : Fin 4) + j.val; omega
  | ⟨2, _⟩ => show win0_1.index t (2 : Fin 3) * 512 + 1 * d.val = d.val; omega
/-- The first position window's block is the batch's positions. -/
theorem pi_apply (i : Fin 128) (q : Fin 2) :
    (iblk m c 2 t : Vec F S1x128x2 .f32) (ix3 (0 : Fin 1) i q) = (V m c main_arg1 : S8x128x2.Idx → Elt F .f32) (ix3 (batchOf t) i q) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg1 _ = V m c main_arg1 _
  congr 1
  funext a
  apply Fin.ext
  match a with
  | ⟨0, _⟩ => show win0_2.index t (0 : Fin 3) * 1 + 1 * 0 = win0_10.index t (0 : Fin 4); omega
  | ⟨1, _⟩ => show win0_2.index t (1 : Fin 3) * 128 + 1 * i.val = i.val; omega
  | ⟨2, _⟩ => show win0_2.index t (2 : Fin 3) * 2 + 1 * q.val = q.val; omega
/-- The second position window's block is the tile's 32 positions. -/
theorem pj_apply (j : Fin 32) (q : Fin 2) :
    (iblk m c 3 t : Vec F S1x32x2 .f32) (ix3 (0 : Fin 1) j q) = (V m c main_arg1 : S8x128x2.Idx → Elt F .f32) (ix3 (batchOf t) (rowOf t j) q) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg1 _ = V m c main_arg1 _
  congr 1
  funext a
  apply Fin.ext
  match a with
  | ⟨0, _⟩ => show win0_3.index t (0 : Fin 3) * 1 + 1 * 0 = win0_10.index t (0 : Fin 4); omega
  | ⟨1, _⟩ => show win0_3.index t (1 : Fin 3) * 32 + 1 * j.val = 32 * win0_10.index t (2 : Fin 4) + j.val; omega
  | ⟨2, _⟩ => show win0_3.index t (2 : Fin 3) * 2 + 1 * q.val = q.val; omega
/-- The six weight and bias windows' blocks are their whole arrays. -/
theorem w1_apply (r : Fin 1026) (k : Fin 512) :
    (iblk m c 4 t : Vec F S1026x512 .f32) (ix2 r k) = (V m c main_arg2 : S1026x512.Idx → Elt F .f32) (ix2 r k) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg2 _ = V m c main_arg2 _
  congr 1
  funext a
  apply Fin.ext
  match a with
  | ⟨0, _⟩ => show win0_4.index t (0 : Fin 2) * 1026 + 1 * r.val = r.val; omega
  | ⟨1, _⟩ => show win0_4.index t (1 : Fin 2) * 512 + 1 * k.val = k.val; omega
theorem b1_apply (k : Fin 512) :
    (iblk m c 5 t : Vec F S512 .f32) (ix1 k) = (V m c main_arg3 : S512.Idx → Elt F .f32) (ix1 k) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg3 _ = V m c main_arg3 _
  congr 1
  funext a
  apply Fin.ext
  match a with
  | ⟨0, _⟩ => show win0_5.index t (0 : Fin 1) * 512 + 1 * k.val = k.val; omega
theorem w2_apply (k : Fin 512) (l : Fin 256) :
    (iblk m c 6 t : Vec F S512x256 .f32) (ix2 k l) = (V m c main_arg4 : S512x256.Idx → Elt F .f32) (ix2 k l) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg4 _ = V m c main_arg4 _
  congr 1
  funext a
  apply Fin.ext
  match a with
  | ⟨0, _⟩ => show win0_6.index t (0 : Fin 2) * 512 + 1 * k.val = k.val; omega
  | ⟨1, _⟩ => show win0_6.index t (1 : Fin 2) * 256 + 1 * l.val = l.val; omega
theorem b2_apply (l : Fin 256) :
    (iblk m c 7 t : Vec F S256 .f32) (ix1 l) = (V m c main_arg5 : S256.Idx → Elt F .f32) (ix1 l) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg5 _ = V m c main_arg5 _
  congr 1
  funext a
  apply Fin.ext
  match a with
  | ⟨0, _⟩ => show win0_7.index t (0 : Fin 1) * 256 + 1 * l.val = l.val; omega
theorem w3_apply (l : Fin 256) (o : Fin 4) :
    (iblk m c 8 t : Vec F S256x4 .f32) (ix2 l o) = (V m c main_arg6 : S256x4.Idx → Elt F .f32) (ix2 l o) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg6 _ = V m c main_arg6 _
  congr 1
  funext a
  apply Fin.ext
  match a with
  | ⟨0, _⟩ => show win0_8.index t (0 : Fin 2) * 256 + 1 * l.val = l.val; omega
  | ⟨1, _⟩ => show win0_8.index t (1 : Fin 2) * 4 + 1 * o.val = o.val; omega
theorem b3_apply (o : Fin 4) :
    (iblk m c 9 t : Vec F S4 .f32) (ix1 o) = (V m c main_arg7 : S4.Idx → Elt F .f32) (ix1 o) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  unfold iblk
  rw [View.read_apply]
  show V m c main_arg7 _ = V m c main_arg7 _
  congr 1
  funext a
  apply Fin.ext
  match a with
  | ⟨0, _⟩ => show win0_9.index t (0 : Fin 1) * 4 + 1 * o.val = o.val; omega

/-- Any whole result array read through the result window's block at point `t`: entry `(0, i, j, o)` of the block is
    entry `(batch, i, 32·tile + j, o)` of the array. -/
theorem out_read (G : S8x128x128x4.Idx → Elt F .f32) (i : Fin 128) (j : Fin 32) (o : Fin 4) :
    (((cfg0.win 10).blk t).view.read (Elt F) G : Vec F S1x128x32x4 .f32) (ix4 (0 : Fin 1) i j o)
      = G (ix4 (batchOf t) i (rowOf t j) o) := by
  obtain ⟨h10_0, h10_1, h10_2, h10_3, h0_0, h0_1, h0_2, h1_0, h1_1, h1_2, h2_0, h2_1, h2_2, h3_0, h3_1, h3_2, h4_0, h4_1, h5_0, h6_0, h6_1, h7_0, h8_0, h8_1, h9_0⟩ := idx_facts t
  rw [View.read_apply]
  show G _ = G _
  congr 1
  funext a
  apply Fin.ext
  match a with
  | ⟨0, _⟩ => show win0_10.index t (0 : Fin 4) * 1 + 1 * 0 = win0_10.index t (0 : Fin 4); omega
  | ⟨1, _⟩ => show win0_10.index t (1 : Fin 4) * 128 + 1 * i.val = i.val; omega
  | ⟨2, _⟩ => show win0_10.index t (2 : Fin 4) * 32 + 1 * j.val = 32 * win0_10.index t (2 : Fin 4) + j.val; omega
  | ⟨3, _⟩ => show win0_10.index t (3 : Fin 4) * 4 + 1 * o.val = o.val; omega

end Cert.KernelIdeal.PairValue

end
-- ==== Proof.PairCover.lean ====
/-
  The result window's blocks cover the result array.

  The block of grid point (batch, tile) is `[batch, 0..127, 32·tile .. 32·tile + 31, 0..3]` of the `[8, 128, 128, 4]`
  array, and every point writes its block back. So the index `(b, i, j, o)` lies in the block of the point with
  batch `b` and tile `j / 32`: the 32 blocks tile the array.
-/
import proofs.«182039_j48808008351770_1_alg».proof.Proof.PairFrame
import Idealize.ShloMosaic.Lib.Pipeline.Value
import Idealize.ShloMosaic.Lib.ValueIdx

set_option maxRecDepth 16384

noncomputable section

namespace Cert.KernelIdeal.PairValue

open Cert.KernelIdeal Cert.KernelIdeal.Gen Cert.KernelIdeal.PairFrame
open Idealize.ShloMosaic Idealize.ShloMosaic.TcCoe Idealize.SL.Sem Idealize.ShloMosaic.ValueIdx

/-- Every block index of the result's box, `(b, 0, q, 0)` with `b < 8` and `q < 4`, is some grid point's (decided over the 32 points). -/
private theorem blockIndex_onto : ∀ (q0 : Fin 8) (q2 : Fin 4), ∃ t : Fin cfg0.N, win0_10.index t = ![q0.val, 0, q2.val, 0] :=
  (by decide +kernel : ∀ (q0 : Fin 8) (q2 : Fin 4), ∃ t : Fin grid0.N, win0_10.index t = ![q0.val, 0, q2.val, 0])

/-- An index of the array is in point `t`'s block iff each coordinate is in the block's range on its axis. -/
private theorem mem_block (t : Fin cfg0.N) (i : S8x128x128x4.Idx) :
    i ∈ ((cfg0.win 10).blk t).view.set ↔ ∀ a : Fin 4, win0_10.index t a * S1x128x32x4.size a ≤ (i a).val
      ∧ (i a).val < win0_10.index t a * S1x128x32x4.size a + S1x128x32x4.size a := by
  show i ∈ ((View.whole main_v0).slice (win0_10.rect t)).set ↔ _
  rw [View.set_slice_whole, Rect.mem_set_unit]
  exact Iff.rfl

/-- Every index of the result array is in some writing-back point's block. -/
theorem covered (i : S8x128x128x4.Idx) :
    ∃ t : Fin cfg0.N, (cfg0.win 10).flush t = true ∧ i ∈ ((cfg0.win 10).blk t).view.set := by
  have hi0 : (i 0).val < 8 := (i 0).isLt
  have hi1 : (i 1).val < 128 := (i 1).isLt
  have hi2 : (i 2).val < 128 := (i 2).isLt
  have hi3 : (i 3).val < 4 := (i 3).isLt
  -- the point whose block index is (i 0, 0, (i 2) / 32, 0)
  obtain ⟨t, ht⟩ := blockIndex_onto ⟨(i 0).val, hi0⟩ ⟨(i 2).val / 32, by omega⟩
  have q0 : win0_10.index t (0 : Fin 4) = (i 0).val := congrFun ht 0
  have q1 : win0_10.index t (1 : Fin 4) = 0 := congrFun ht 1
  have q2 : win0_10.index t (2 : Fin 4) = (i 2).val / 32 := congrFun ht 2
  have q3 : win0_10.index t (3 : Fin 4) = 0 := congrFun ht 3
  refine ⟨t, flush0_10 t, ?_⟩
  rw [mem_block]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 128 ≤ (i 1).val ∧ (i 1).val < win0_10.index t (1 : Fin 4) * 128 + 128; omega
  | ⟨2, _⟩ => show win0_10.index t (2 : Fin 4) * 32 ≤ (i 2).val ∧ (i 2).val < win0_10.index t (2 : Fin 4) * 32 + 32; omega
  | ⟨3, _⟩ => show win0_10.index t (3 : Fin 4) * 4 ≤ (i 3).val ∧ (i 3).val < win0_10.index t (3 : Fin 4) * 4 + 4; omega

end Cert.KernelIdeal.PairValue

end
-- ==== Proof.FirstLayer.lean ====
/-
  The first layer of the block body, read at an entry.

  At a grid point the body holds the whole first weight matrix's three row blocks `A` (512 rows), `B` (512 rows)
  and `C` (2 rows), the 128 feature rows and positions of the batch (the `i` side) and the 32 feature rows and
  positions of the current tile (the `j` side).  Entry `(i, j, k)` of the sum it forms before the bias is
      ((Σ_d f_i d · A d k) + (Σ_d f_j d · B d k)) + Σ_q (p_i q − p_j q) · C q k:
  the two feature products are matrix products into a zero accumulator, broadcast along the other point's axis;
  the position term is a matrix product of the 4096 flattened pairs' differences with `C`, row `32·i + j` of which
  is the pair `(i, j)`.  The bias term is the bias vector broadcast over all pairs.
-/
import proofs.«182039_j48808008351770_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

section Layout
variable {α : Type}

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
private theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` array cast to `[1, 1, c]` reads, at `(u, w, k)`, the operand at `k`. -/
private theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_three, Shape.rowMajor_val_one]
    show k.val = (u.val * 1 + w.val) * c + k.val
    rw [hu, hw]
    omega)

/-- A `[1, 1, c]` array broadcast to `[a, b, c]` reads, at `(i, j, k)`, the operand at `(0, 0, k)`. -/
private theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pairs flattened: a `[128, 32, c]` array cast to `[4096, c]` reads, at row `32·i + j` and column `q`, the
    operand at `(i, j, q)`. -/
private theorem shapeCast_pairs_rows_apply {c : ℕ} (x : (⟨3, ![128, 32, c]⟩ : Shape).Idx → α)
    (h : (⟨3, ![128, 32, c]⟩ : Shape).ShapeCasts ⟨2, ![4096, c]⟩) (i : Fin 128) (j : Fin 32) (q : Fin c)
    (r : Fin 4096) (hr : r.val = 32 * i.val + j.val) :
    shapeCast ⟨2, ![4096, c]⟩ x h (ix2 r q) = x (ix3 i j q) :=
  shapeCast_apply x h _ _ (by
    rw [Shape.rowMajor_val_three, Shape.rowMajor_val_two]
    show (i.val * 32 + j.val) * c + q.val = r.val * c + q.val
    rw [hr, Nat.mul_comm 32 i.val])

/-- The rows folded back to pairs: a `[4096, c]` array cast to `[128, 32, c]` reads, at `(i, j, k)`, the operand at
    row `32·i + j` and column `k`. -/
private theorem shapeCast_rows_pairs_apply {c : ℕ} (x : (⟨2, ![4096, c]⟩ : Shape).Idx → α)
    (h : (⟨2, ![4096, c]⟩ : Shape).ShapeCasts ⟨3, ![128, 32, c]⟩) (i : Fin 128) (j : Fin 32) (k : Fin c)
    (r : Fin 4096) (hr : r.val = 32 * i.val + j.val) :
    shapeCast ⟨3, ![128, 32, c]⟩ x h (ix3 i j k) = x (ix2 r k) :=
  shapeCast_apply x h _ _ (by
    rw [Shape.rowMajor_val_three, Shape.rowMajor_val_two]
    show r.val * c + k.val = (i.val * 32 + j.val) * c + k.val
    rw [hr, Nat.mul_comm 32 i.val])

end Layout

section Products

private theorem lhs_batchProd_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
private theorem lhs_batchProd_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
private theorem rhs_batchProd_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
private theorem rhs_batchProd_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl
/-- The batch side's feature product into a zero accumulator: entry `(r, k)` is `Σ_d x r d · y d k`. -/
private theorem matmul_batchProd_apply (x : FVec Ideal S128x512 .bf16) (y : FVec Ideal S512x512 .bf16) (r : Fin 128) (k : Fin 512) :
    matmul dot_S128x512_S512x512_S128x512_1_0_0_1_n_n none x y (constant (F := Ideal) S128x512 .f32 0x00000000#32) (ix2 r k)
      = ∑ d : Fin 512, x (ix2 r d) * y (ix2 d k) := by
  simp only [matmul]
  rw [Ideal.matmul_constant_zero_apply, ← Equiv.sum_comp (ValueIdx.contrEquiv1 dot_S128x512_S512x512_S128x512_1_0_0_1_n_n 512 rfl rfl).symm]
  refine Finset.sum_congr rfl fun d _ => ?_
  have hk := ValueIdx.contrEquiv1_symm_val dot_S128x512_S512x512_S128x512_1_0_0_1_n_n 512 rfl rfl d
  have el : dot_S128x512_S512x512_S128x512_1_0_0_1_n_n.lhsIdx (ix2 r k) ((ValueIdx.contrEquiv1 dot_S128x512_S512x512_S128x512_1_0_0_1_n_n 512 rfl rfl).symm d) = ix2 r d := funext fun a => Fin.ext (by
    match a with
    | ⟨0, _⟩ => exact lhs_batchProd_0 _ _
    | ⟨1, _⟩ => exact (lhs_batchProd_1 _ _).trans hk)
  have er : dot_S128x512_S512x512_S128x512_1_0_0_1_n_n.rhsIdx (ix2 r k) ((ValueIdx.contrEquiv1 dot_S128x512_S512x512_S128x512_1_0_0_1_n_n 512 rfl rfl).symm d) = ix2 d k := funext fun a => Fin.ext (by
    match a with
    | ⟨0, _⟩ => exact (rhs_batchProd_0 _ _).trans hk
    | ⟨1, _⟩ => exact rhs_batchProd_1 _ _)
  rw [el, er]

private theorem lhs_tileProd_0 (i : S32x512.Idx) (q : dot_S32x512_S512x512_S32x512_1_0_0_1_n_n.contr.Idx) :
    (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
private theorem lhs_tileProd_1 (i : S32x512.Idx) (q : dot_S32x512_S512x512_S32x512_1_0_0_1_n_n.contr.Idx) :
    (dot_S32x512_S512x512_S32x512_1_0_0_1_n_n.lhsIdx i q 1).val = (q ⟨0, by decide⟩).val :=
  dot_S32x512_S512x512_S32x512_1_0_0_1_n_n.lhsIdx_val_of_single rfl i q
private theorem rhs_tileProd_0 (i : S32x512.Idx) (q : dot_S32x512_S512x512_S32x512_1_0_0_1_n_n.contr.Idx) :
    (dot_S32x512_S512x512_S32x512_1_0_0_1_n_n.rhsIdx i q 0).val = (q ⟨0, by decide⟩).val :=
  dot_S32x512_S512x512_S32x512_1_0_0_1_n_n.rhsIdx_val_of_single rfl i q
private theorem rhs_tileProd_1 (i : S32x512.Idx) (q : dot_S32x512_S512x512_S32x512_1_0_0_1_n_n.contr.Idx) :
    (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl
/-- The tile side's feature product into a zero accumulator: entry `(r, k)` is `Σ_d x r d · y d k`. -/
private theorem matmul_tileProd_apply (x : FVec Ideal S32x512 .bf16) (y : FVec Ideal S512x512 .bf16) (r : Fin 32) (k : Fin 512) :
    matmul dot_S32x512_S512x512_S32x512_1_0_0_1_n_n none x y (constant (F := Ideal) S32x512 .f32 0x00000000#32) (ix2 r k)
      = ∑ d : Fin 512, x (ix2 r d) * y (ix2 d k) := by
  simp only [matmul]
  rw [Ideal.matmul_constant_zero_apply, ← Equiv.sum_comp (ValueIdx.contrEquiv1 dot_S32x512_S512x512_S32x512_1_0_0_1_n_n 512 rfl rfl).symm]
  refine Finset.sum_congr rfl fun d _ => ?_
  have hk := ValueIdx.contrEquiv1_symm_val dot_S32x512_S512x512_S32x512_1_0_0_1_n_n 512 rfl rfl d
  have el : dot_S32x512_S512x512_S32x512_1_0_0_1_n_n.lhsIdx (ix2 r k) ((ValueIdx.contrEquiv1 dot_S32x512_S512x512_S32x512_1_0_0_1_n_n 512 rfl rfl).symm d) = ix2 r d := funext fun a => Fin.ext (by
    match a with
    | ⟨0, _⟩ => exact lhs_tileProd_0 _ _
    | ⟨1, _⟩ => exact (lhs_tileProd_1 _ _).trans hk)
  have er : dot_S32x512_S512x512_S32x512_1_0_0_1_n_n.rhsIdx (ix2 r k) ((ValueIdx.contrEquiv1 dot_S32x512_S512x512_S32x512_1_0_0_1_n_n 512 rfl rfl).symm d) = ix2 d k := funext fun a => Fin.ext (by
    match a with
    | ⟨0, _⟩ => exact (rhs_tileProd_0 _ _).trans hk
    | ⟨1, _⟩ => exact rhs_tileProd_1 _ _)
  rw [el, er]

private theorem lhs_posProd_0 (i : S4096x512.Idx) (q : dot_S4096x2_S2x512_S4096x512_1_0_0_1_n_n.contr.Idx) :
    (dot_S4096x2_S2x512_S4096x512_1_0_0_1_n_n.lhsIdx i q 0).val = (i 0).val := by
  unfold DotDims.lhsIdx
  rw [dif_neg (show ¬(0 : Fin S4096x2.rank) ∈ dot_S4096x2_S2x512_S4096x512_1_0_0_1_n_n.lhsBatch by decide), dif_pos (show (0 : Fin S4096x2.rank) ∈ dot_S4096x2_S2x512_S4096x512_1_0_0_1_n_n.lhsNonContracting by decide)]
  rfl
private theorem lhs_posProd_1 (i : S4096x512.Idx) (q : dot_S4096x2_S2x512_S4096x512_1_0_0_1_n_n.contr.Idx) :
    (dot_S4096x2_S2x512_S4096x512_1_0_0_1_n_n.lhsIdx i q 1).val = (q ⟨0, by decide⟩).val :=
  dot_S4096x2_S2x512_S4096x512_1_0_0_1_n_n.lhsIdx_val_of_single rfl i q
private theorem rhs_posProd_0 (i : S4096x512.Idx) (q : dot_S4096x2_S2x512_S4096x512_1_0_0_1_n_n.contr.Idx) :
    (dot_S4096x2_S2x512_S4096x512_1_0_0_1_n_n.rhsIdx i q 0).val = (q ⟨0, by decide⟩).val :=
  dot_S4096x2_S2x512_S4096x512_1_0_0_1_n_n.rhsIdx_val_of_single rfl i q
private theorem rhs_posProd_1 (i : S4096x512.Idx) (q : dot_S4096x2_S2x512_S4096x512_1_0_0_1_n_n.contr.Idx) :
    (dot_S4096x2_S2x512_S4096x512_1_0_0_1_n_n.rhsIdx i q 1).val = (i 1).val := by
  unfold DotDims.rhsIdx
  rw [dif_neg (show ¬(1 : Fin S2x512.rank) ∈ dot_S4096x2_S2x512_S4096x512_1_0_0_1_n_n.rhsBatch by decide), dif_pos (show (1 : Fin S2x512.rank) ∈ dot_S4096x2_S2x512_S4096x512_1_0_0_1_n_n.rhsNonContracting by decide)]
  rfl
/-- The position product of the 4096 flattened pairs into a zero accumulator: entry `(r, k)` is `Σ_q x r q · y q k`. -/
private theorem matmul_posProd_apply (x : FVec Ideal S4096x2 .bf16) (y : FVec Ideal S2x512 .bf16) (r : Fin 4096) (k : Fin 512) :
    matmul dot_S4096x2_S2x512_S4096x512_1_0_0_1_n_n none x y (constant (F := Ideal) S4096x512 .f32 0x00000000#32) (ix2 r k)
      = ∑ d : Fin 2, x (ix2 r d) * y (ix2 d k) := by
  simp only [matmul]
  rw [Ideal.matmul_constant_zero_apply, ← Equiv.sum_comp (ValueIdx.contrEquiv1 dot_S4096x2_S2x512_S4096x512_1_0_0_1_n_n 2 rfl rfl).symm]
  refine Finset.sum_congr rfl fun d _ => ?_
  have hk := ValueIdx.contrEquiv1_symm_val dot_S4096x2_S2x512_S4096x512_1_0_0_1_n_n 2 rfl rfl d
  have el : dot_S4096x2_S2x512_S4096x512_1_0_0_1_n_n.lhsIdx (ix2 r k) ((ValueIdx.contrEquiv1 dot_S4096x2_S2x512_S4096x512_1_0_0_1_n_n 2 rfl rfl).symm d) = ix2 r d := funext fun a => Fin.ext (by
    match a with
    | ⟨0, _⟩ => exact lhs_posProd_0 _ _
    | ⟨1, _⟩ => exact (lhs_posProd_1 _ _).trans hk)
  have er : dot_S4096x2_S2x512_S4096x512_1_0_0_1_n_n.rhsIdx (ix2 r k) ((ValueIdx.contrEquiv1 dot_S4096x2_S2x512_S4096x512_1_0_0_1_n_n 2 rfl rfl).symm d) = ix2 d k := funext fun a => Fin.ext (by
    match a with
    | ⟨0, _⟩ => exact (rhs_posProd_0 _ _).trans hk
    | ⟨1, _⟩ => exact rhs_posProd_1 _ _)
  rw [el, er]

end Products

/-- Entry `(i, j, k)` of the first layer's sum before the bias. -/
theorem pay2_apply (v0 v1 : Vec Ideal S512x512 .f32) (v2 : Vec Ideal S2x512 .f32) (v3 : Vec Ideal S1x128x512 .f32)
    (v5 : Vec Ideal S1x32x512 .f32) (v7 : Vec Ideal S1x128x2 .f32) (v9 : Vec Ideal S1x32x2 .f32)
    (i : Fin 128) (j : Fin 32) (k : Fin 512) :
    k0_pay2 (F := Ideal) v0 v1 v2 v3 v5 v7 v9 (ix3 i j k)
      = ((∑ d : Fin 512, v3 (ix3 (0 : Fin 1) i d) * v0 (ix2 d k)) + (∑ d : Fin 512, v5 (ix3 (0 : Fin 1) j d) * v1 (ix2 d k)))
        + ∑ q : Fin 2, (v7 (ix3 (0 : Fin 1) i q) - v9 (ix3 (0 : Fin 1) j q)) * v2 (ix2 q k) := by
  have hrow : 32 * i.val + j.val < 4096 := by have := i.isLt; have := j.isLt; omega
  unfold k0_pay2
  rw [addf_apply, addf_apply]
  congr 1
  · congr 1
    · rw [broadcastTo_a1c_abc_apply, shapeCast_ab_a1b_apply, matmul_batchProd_apply]
      refine Finset.sum_congr rfl fun d _ => ?_
      rw [truncf_apply, truncf_apply, shapeCast_1ab_ab_apply]
    · rw [broadcastTo_1bc_abc_apply, shapeCast_ab_1ab_apply, matmul_tileProd_apply]
      refine Finset.sum_congr rfl fun d _ => ?_
      rw [truncf_apply, truncf_apply, shapeCast_1ab_ab_apply]
  · rw [shapeCast_rows_pairs_apply _ _ i j k ⟨32 * i.val + j.val, hrow⟩ rfl, matmul_posProd_apply]
    refine Finset.sum_congr rfl fun q _ => ?_
    rw [truncf_apply, truncf_apply, shapeCast_pairs_rows_apply _ _ i j q ⟨32 * i.val + j.val, hrow⟩ rfl, subf_apply,
      broadcastTo_a1c_abc_apply, broadcastTo_1bc_abc_apply, shapeCast_ab_a1b_apply, shapeCast_ab_1ab_apply,
      shapeCast_1ab_ab_apply, shapeCast_1ab_ab_apply]

/-- The bias broadcast over all pairs: entry `(i, j, k)` is `b₁ k`. -/
theorem pay3_apply (v27 : Vec Ideal S512 .f32) (i : Fin 128) (j : Fin 32) (k : Fin 512) :
    k0_pay3 (F := Ideal) v27 (ix3 i j k) = v27 (ix1 k) := by
  unfold k0_pay3
  rw [broadcastTo_11c_abc_apply, shapeCast_c_11c_apply]

end Cert.KernelIdeal.BlockValue

end
-- ==== Proof.UpperLayers.lean ====
/-
  The two upper layers of the block body, read at an entry.

  From the first layer's sum `s` and the broadcast bias `t` (both `[128, 32, 512]`) the body rectifies `s + t`,
  flattens the pairs to 4096 rows (row `32·i + j` is the pair `(i, j)`), multiplies by `W₂` into a zero accumulator,
  adds `b₂` along the rows, rectifies, multiplies by `W₃`, adds `b₃`, and folds the rows back to `[1, 128, 32, 4]`.
  Entry `(0, i, j, o)` of the result is therefore
      Σ_l max (Σ_k max (s (i,j,k) + t (i,j,k)) 0 · W₂ k l + b₂ l) 0 · W₃ l o + b₃ o.
-/
import proofs.«182039_j48808008351770_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- Narrowing to the matrix unit's input format does nothing to an extended real. -/
private theorem upper_trunc_apply {s : Shape} (x : FVec Ideal s .f32) (h : FTy.bf16.bits < FTy.f32.bits) (idx : s.Idx) :
    (truncf .bf16 x h : FVec Ideal s .bf16) idx = x idx := rfl

/-- Row 32·i + j of a flattened [4096, _] array holds the pair (i, j). -/
private abbrev pairRow (i : Fin 128) (j : Fin 32) : Fin 4096 :=
  ⟨32 * i.val + j.val, by have := i.isLt; have := j.isLt; omega⟩

/-- Flattening the pairs: row 32·i + j, column k of the flattened array is entry (i, j, k). -/
private theorem upper_flatten_apply {α : Type} {n : Nat} (x : (⟨3, ![128, 32, n]⟩ : Shape).Idx → α)
    (h : (⟨3, ![128, 32, n]⟩ : Shape).ShapeCasts ⟨2, ![4096, n]⟩) (i : Fin 128) (j : Fin 32) (k : Fin n) :
    shapeCast ⟨2, ![4096, n]⟩ x h (ix2 (pairRow i j) k) = x (ix3 i j k) :=
  shapeCast_apply x h _ _ (by
    rw [Shape.rowMajor_val_three, Shape.rowMajor_val_two]
    show (i.val * 32 + j.val) * n + k.val = (32 * i.val + j.val) * n + k.val
    rw [Nat.mul_comm i.val 32])

/-- Folding the rows back: entry (i, j, o) of the folded array is row 32·i + j, column o. -/
private theorem upper_unflatten_apply {α : Type} {n : Nat} (y : (⟨2, ![4096, n]⟩ : Shape).Idx → α)
    (h : (⟨2, ![4096, n]⟩ : Shape).ShapeCasts ⟨3, ![128, 32, n]⟩) (i : Fin 128) (j : Fin 32) (o : Fin n) :
    shapeCast ⟨3, ![128, 32, n]⟩ y h (ix3 i j o) = y (ix2 (pairRow i j) o) :=
  shapeCast_apply y h _ _ (by
    rw [Shape.rowMajor_val_three, Shape.rowMajor_val_two]
    show (32 * i.val + j.val) * n + o.val = (i.val * 32 + j.val) * n + o.val
    rw [Nat.mul_comm i.val 32])

/-- A bias vector laid along the rows: entry (r, c) is the vector at c. -/
private theorem upper_bias_apply {α : Type} {a b : Nat} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix1 c) :=
  (broadcastTo_1b_ab_apply _ h2 r c).trans (shapeCast_a_1a_apply v h1 0 c)

/-- The rectifier: a maximum against the zero word is the maximum with 0. -/
private theorem upper_relu_apply {s : Shape} (x : FVec Ideal s .f32) (idx : s.Idx) :
    maximumf x (broadcast s (Scalar.ofBits (F := Ideal) .f32 0x00000000#32)) idx = max (x idx) 0 := by
  show max (x idx) (Ideal.ofBits .f32 0x00000000#32) = _
  rw [Ideal.ofBits_zero_f32]

/-! The second layer's product's operand indices at a result index and a contraction index, axis by axis. -/

private theorem upper_lhs1_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
private theorem upper_lhs1_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
private theorem upper_rhs1_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
private theorem upper_rhs1_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The second layer's product into a zero accumulator, at entry (r, c): the sum over the contracted axis of the products. -/
private theorem upper_mm1_apply (x : FVec Ideal S4096x512 .bf16) (w : FVec Ideal S512x256 .bf16) (r : Fin 4096) (c : Fin 256) :
    matmul dot_S4096x512_S512x256_S4096x256_1_0_0_1_n_n none x w (constant (F := Ideal) S4096x256 .f32 0x00000000#32) (ix2 r c)
      = ∑ k : Fin 512, x (ix2 r k) * w (ix2 k c) := by
  simp only [matmul]
  rw [Ideal.matmul_constant_zero_apply, ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 r c) ((contrEquiv1 dot_S4096x512_S512x256_S4096x256_1_0_0_1_n_n 512 rfl rfl).symm k) = ix2 r k := funext fun a => Fin.ext (by
    match a with
    | ⟨0, _⟩ => exact upper_lhs1_0 _ _
    | ⟨1, _⟩ => exact (upper_lhs1_1 _ _).trans hk)
  have er : dot_S4096x512_S512x256_S4096x256_1_0_0_1_n_n.rhsIdx (ix2 r c) ((contrEquiv1 dot_S4096x512_S512x256_S4096x256_1_0_0_1_n_n 512 rfl rfl).symm k) = ix2 k c := funext fun a => Fin.ext (by
    match a with
    | ⟨0, _⟩ => exact (upper_rhs1_0 _ _).trans hk
    | ⟨1, _⟩ => exact upper_rhs1_1 _ _)
  rw [el, er]

/-! The third layer's product's operand indices at a result index and a contraction index, axis by axis. -/

private theorem upper_lhs2_0 (i : S4096x4.Idx) (q : dot_S4096x256_S256x4_S4096x4_1_0_0_1_n_n.contr.Idx) :
    (dot_S4096x256_S256x4_S4096x4_1_0_0_1_n_n.lhsIdx i q 0).val = (i 0).val := by
  unfold DotDims.lhsIdx
  rw [dif_neg (show ¬(0 : Fin S4096x256.rank) ∈ dot_S4096x256_S256x4_S4096x4_1_0_0_1_n_n.lhsBatch by decide), dif_pos (show (0 : Fin S4096x256.rank) ∈ dot_S4096x256_S256x4_S4096x4_1_0_0_1_n_n.lhsNonContracting by decide)]
  rfl
private theorem upper_lhs2_1 (i : S4096x4.Idx) (q : dot_S4096x256_S256x4_S4096x4_1_0_0_1_n_n.contr.Idx) :
    (dot_S4096x256_S256x4_S4096x4_1_0_0_1_n_n.lhsIdx i q 1).val = (q ⟨0, by decide⟩).val :=
  dot_S4096x256_S256x4_S4096x4_1_0_0_1_n_n.lhsIdx_val_of_single rfl i q
private theorem upper_rhs2_0 (i : S4096x4.Idx) (q : dot_S4096x256_S256x4_S4096x4_1_0_0_1_n_n.contr.Idx) :
    (dot_S4096x256_S256x4_S4096x4_1_0_0_1_n_n.rhsIdx i q 0).val = (q ⟨0, by decide⟩).val :=
  dot_S4096x256_S256x4_S4096x4_1_0_0_1_n_n.rhsIdx_val_of_single rfl i q
private theorem upper_rhs2_1 (i : S4096x4.Idx) (q : dot_S4096x256_S256x4_S4096x4_1_0_0_1_n_n.contr.Idx) :
    (dot_S4096x256_S256x4_S4096x4_1_0_0_1_n_n.rhsIdx i q 1).val = (i 1).val := by
  unfold DotDims.rhsIdx
  rw [dif_neg (show ¬(1 : Fin S256x4.rank) ∈ dot_S4096x256_S256x4_S4096x4_1_0_0_1_n_n.rhsBatch by decide), dif_pos (show (1 : Fin S256x4.rank) ∈ dot_S4096x256_S256x4_S4096x4_1_0_0_1_n_n.rhsNonContracting by decide)]
  rfl

/-- The third layer's product into a zero accumulator, at entry (r, c): the sum over the contracted axis of the products. -/
private theorem upper_mm2_apply (x : FVec Ideal S4096x256 .bf16) (w : FVec Ideal S256x4 .bf16) (r : Fin 4096) (c : Fin 4) :
    matmul dot_S4096x256_S256x4_S4096x4_1_0_0_1_n_n none x w (constant (F := Ideal) S4096x4 .f32 0x00000000#32) (ix2 r c)
      = ∑ k : Fin 256, x (ix2 r k) * w (ix2 k c) := by
  simp only [matmul]
  rw [Ideal.matmul_constant_zero_apply, ← Equiv.sum_comp (contrEquiv1 dot_S4096x256_S256x4_S4096x4_1_0_0_1_n_n 256 rfl rfl).symm]
  refine Finset.sum_congr rfl fun k _ => ?_
  have hk := contrEquiv1_symm_val dot_S4096x256_S256x4_S4096x4_1_0_0_1_n_n 256 rfl rfl k
  have el : dot_S4096x256_S256x4_S4096x4_1_0_0_1_n_n.lhsIdx (ix2 r c) ((contrEquiv1 dot_S4096x256_S256x4_S4096x4_1_0_0_1_n_n 256 rfl rfl).symm k) = ix2 r k := funext fun a => Fin.ext (by
    match a with
    | ⟨0, _⟩ => exact upper_lhs2_0 _ _
    | ⟨1, _⟩ => exact (upper_lhs2_1 _ _).trans hk)
  have er : dot_S4096x256_S256x4_S4096x4_1_0_0_1_n_n.rhsIdx (ix2 r c) ((contrEquiv1 dot_S4096x256_S256x4_S4096x4_1_0_0_1_n_n 256 rfl rfl).symm k) = ix2 k c := funext fun a => Fin.ext (by
    match a with
    | ⟨0, _⟩ => exact (upper_rhs2_0 _ _).trans hk
    | ⟨1, _⟩ => exact upper_rhs2_1 _ _)
  rw [el, er]

/-- Entry `(0, i, j, o)` of the stored block, from the first layer's sum `v33` and the broadcast bias `v35`. -/
theorem pay1_apply (v33 v35 : FVec Ideal S128x32x512 .f32) (v41 : Vec Ideal S512x256 .f32) (v44 : Vec Ideal S256 .f32)
    (v51 : Vec Ideal S256x4 .f32) (v54 : Vec Ideal S4 .f32) (i : Fin 128) (j : Fin 32) (o : Fin 4) :
    k0_pay1 (F := Ideal) v33 v35 v41 v44 v51 v54 (ix4 (0 : Fin 1) i j o)
      = (∑ l : Fin 256, max ((∑ k : Fin 512, max (v33 (ix3 i j k) + v35 (ix3 i j k)) 0 * v41 (ix2 k l)) + v44 (ix1 l)) 0
            * v51 (ix2 l o)) + v54 (ix1 o) := by
  unfold k0_pay1
  -- the two folds: entry (0, i, j, o) is row 32·i + j, column o of the last sum
  refine (shapeCast_abc_1abc_apply _ _ (0 : Fin 1) i j o).trans ?_
  refine (upper_unflatten_apply _ _ i j o).trans ?_
  refine (addf_apply _ _ _).trans ?_
  refine congrArg₂ (fun a b : EReal => a + b) ?_ (upper_bias_apply v54 _ _ (pairRow i j) o)
  -- the third layer's product
  refine (upper_mm2_apply _ _ (pairRow i j) o).trans ?_
  refine Finset.sum_congr rfl fun l _ => ?_
  refine congrArg₂ (fun a b : EReal => a * b) ?_ (upper_trunc_apply _ _ _)
  refine (upper_trunc_apply _ _ _).trans ?_
  refine (upper_relu_apply _ _).trans ?_
  refine congrArg (fun a : EReal => max a 0) ?_
  refine (addf_apply _ _ _).trans ?_
  refine congrArg₂ (fun a b : EReal => a + b) ?_ (upper_bias_apply v44 _ _ (pairRow i j) l)
  -- the second layer's product
  refine (upper_mm1_apply _ _ (pairRow i j) l).trans ?_
  refine Finset.sum_congr rfl fun k _ => ?_
  refine congrArg₂ (fun a b : EReal => a * b) ?_ (upper_trunc_apply _ _ _)
  refine (upper_trunc_apply _ _ _).trans ?_
  refine (upper_flatten_apply _ _ i j k).trans ?_
  refine (upper_relu_apply _ _).trans ?_
  rfl

end Cert.KernelIdeal.BlockValue

end
-- ==== Proof.PairSpec.lean ====
/-
  What both programs compute, written once over the extended reals.

  For a batch `b` and an ordered pair of points `(i, j)`, the score vector is a three-layer perceptron of the
  concatenation `[f_i, f_j, p_i - p_j]`.  The first layer is never formed on the concatenation: the 1026 rows of
  its weight matrix split into a block `A` (rows 0..511) that meets `f_i`, a block `B` (rows 512..1023) that
  meets `f_j`, and two last rows `C` (1024, 1025) that meet the position difference, so the hidden unit `k` is
      max 0 (((Σ_d f_i d · A d k) + (Σ_d f_j d · B d k)) + (Σ_q (p_i q − p_j q) · C q k)) + b₁ k),
  grouped exactly so.  The second layer is `max 0 (Σ_k h k · W₂ k l + b₂ l)`, the third `Σ_l g l · W₃ l o + b₃ o`.

  `scoreOf` is this function of the rows it reads; `wholeScore` reads the rows off the eight argument arrays at
  `(b, i, j, o)`.  No law of arithmetic is used anywhere below: both programs form these very sums in this
  very grouping, so the extended reals' infinities need no care.
-/
import Idealize.ShloMosaic.PureOps.Ideal
import Idealize.ShloMosaic.Lib.ValueIdx

noncomputable section

namespace Cert.PairSpec

open Idealize.ShloMosaic Idealize.ShloMosaic.ValueIdx

/-- Row `d` of the first weight matrix's top block (the rows that meet the first point's features). -/
abbrev rowA (d : Fin 512) : Fin 1026 := ⟨d.val, by have := d.isLt; omega⟩
/-- Row `512 + d`: the middle block (the rows that meet the second point's features). -/
abbrev rowB (d : Fin 512) : Fin 1026 := ⟨512 + d.val, by have := d.isLt; omega⟩
/-- Row `1024 + q`: the last two rows (they meet the position difference). -/
abbrev rowC (q : Fin 2) : Fin 1026 := ⟨1024 + q.val, by have := q.isLt; omega⟩

/-- The first layer's pre-activation at hidden unit `k`, from the rows it reads. -/
def hidden1 (A B : Fin 512 → Fin 512 → EReal) (C : Fin 2 → Fin 512 → EReal) (fi fj : Fin 512 → EReal)
    (pi pj : Fin 2 → EReal) (b1 : Fin 512 → EReal) (k : Fin 512) : EReal :=
  (((∑ d : Fin 512, fi d * A d k) + (∑ d : Fin 512, fj d * B d k)) + ∑ q : Fin 2, (pi q - pj q) * C q k) + b1 k

/-- The second layer's pre-activation at unit `l`: the rectified first layer against `W₂`, plus its bias. -/
def hidden2 (A B : Fin 512 → Fin 512 → EReal) (C : Fin 2 → Fin 512 → EReal) (fi fj : Fin 512 → EReal)
    (pi pj : Fin 2 → EReal) (b1 : Fin 512 → EReal) (W2 : Fin 512 → Fin 256 → EReal) (b2 : Fin 256 → EReal)
    (l : Fin 256) : EReal :=
  (∑ k : Fin 512, max (hidden1 A B C fi fj pi pj b1 k) 0 * W2 k l) + b2 l

/-- The score at output `o`: the rectified second layer against `W₃`, plus its bias. -/
def scoreOf (A B : Fin 512 → Fin 512 → EReal) (C : Fin 2 → Fin 512 → EReal) (fi fj : Fin 512 → EReal)
    (pi pj : Fin 2 → EReal) (b1 : Fin 512 → EReal) (W2 : Fin 512 → Fin 256 → EReal) (b2 : Fin 256 → EReal)
    (W3 : Fin 256 → Fin 4 → EReal) (b3 : Fin 4 → EReal) (o : Fin 4) : EReal :=
  (∑ l : Fin 256, max (hidden2 A B C fi fj pi pj b1 W2 b2 l) 0 * W3 l o) + b3 o

/-- The whole result array `[8, 128, 128, 4]` as one function of the eight argument arrays: at `(b, i, j, o)` the
    score of the pair `(i, j)` of batch `b`. -/
def wholeScore (f : (⟨3, ![8, 128, 512]⟩ : Shape).Idx → EReal) (p : (⟨3, ![8, 128, 2]⟩ : Shape).Idx → EReal)
    (W1 : (⟨2, ![1026, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 4]⟩ : Shape).Idx → EReal) (b3 : (⟨1, ![4]⟩ : Shape).Idx → EReal) :
    (⟨4, ![8, 128, 128, 4]⟩ : Shape).Idx → EReal := fun y =>
  scoreOf (fun d k => W1 (ix2 (rowA d) k)) (fun d k => W1 (ix2 (rowB d) k)) (fun q k => W1 (ix2 (rowC q) k))
    (fun d => f (ix3 (y 0) (y 1) d)) (fun d => f (ix3 (y 0) (y 2) d))
    (fun q => p (ix3 (y 0) (y 1) q)) (fun q => p (ix3 (y 0) (y 2) q))
    (fun k => b1 (ix1 k)) (fun k l => W2 (ix2 k l)) (fun l => b2 (ix1 l)) (fun l o => W3 (ix2 l o)) (fun o => b3 (ix1 o))
    (y 3)

end Cert.PairSpec

end
-- ==== Proof.BlockScore.lean ====
/-
  The block body's stored value at an entry is the score function of the rows it loaded.

  The first layer's sum and bias (read at `(i, j, k)`) feed the two upper layers (read at `(0, i, j, o)`); put
  together, entry `(0, i, j, o)` of the stored block is `scoreOf` of: the three loaded row blocks of the first
  weight matrix, row `i` of the slab's features and positions, row `j` of the tile's, and the remaining weights
  and biases. Nothing is rearranged: the body forms the sums in `scoreOf`'s own grouping.
-/
import proofs.«182039_j48808008351770_1_alg».proof.Proof.FirstLayer
import proofs.«182039_j48808008351770_1_alg».proof.Proof.UpperLayers
import proofs.«182039_j48808008351770_1_alg».proof.Proof.PairSpec

noncomputable section

namespace Cert.KernelIdeal.BlockValue

open Cert.KernelIdeal Cert.KernelIdeal.Gen Idealize.ShloMosaic Idealize.ShloMosaic.ValueIdx

/-- Entry `(0, i, j, o)` of the block the body stores, from the twelve values it loads. -/
theorem payload_apply (v0 v1 : Vec Ideal S512x512 .f32) (v2 : Vec Ideal S2x512 .f32) (v3 : Vec Ideal S1x128x512 .f32)
    (v5 : Vec Ideal S1x32x512 .f32) (v7 : Vec Ideal S1x128x2 .f32) (v9 : Vec Ideal S1x32x2 .f32) (v27 : Vec Ideal S512 .f32)
    (v41 : Vec Ideal S512x256 .f32) (v44 : Vec Ideal S256 .f32) (v51 : Vec Ideal S256x4 .f32) (v54 : Vec Ideal S4 .f32)
    (i : Fin 128) (j : Fin 32) (o : Fin 4) :
    k0_pay1 (F := Ideal) (k0_pay2 v0 v1 v2 v3 v5 v7 v9) (k0_pay3 v27) v41 v44 v51 v54 (ix4 (0 : Fin 1) i j o)
      = Cert.PairSpec.scoreOf (fun d k => v0 (ix2 d k)) (fun d k => v1 (ix2 d k)) (fun q k => v2 (ix2 q k))
          (fun d => v3 (ix3 (0 : Fin 1) i d)) (fun d => v5 (ix3 (0 : Fin 1) j d))
          (fun q => v7 (ix3 (0 : Fin 1) i q)) (fun q => v9 (ix3 (0 : Fin 1) j q))
          (fun k => v27 (ix1 k)) (fun k l => v41 (ix2 k l)) (fun l => v44 (ix1 l)) (fun l o => v51 (ix2 l o))
          (fun o => v54 (ix1 o)) o := by
  rw [pay1_apply]
  simp only [pay2_apply, pay3_apply]
  rfl

end Cert.KernelIdeal.BlockValue

end
-- ==== Proof.PairValue.lean ====
/-
  The idealized kernel's result array is the whole-array score function of its arguments.

  At grid point (batch `b`, tile `T`) the body stores, at entry `(0, i, j, o)` of its output block, the score
  function of the rows it loaded: the three row blocks of the first weight matrix (read through the rectangles at
  rows 0, 512 and 1024 of its buffer), row `i` of the batch's features and positions, row `j` of the tile's, and
  the other weights and biases. Those loaded rows are rows of the argument arrays — the tile's row `j` is the
  batch's row `32·T + j` — and entry `(0, i, j, o)` of the block is entry `(b, i, 32·T + j, o)` of the result
  array. So every point writes back a block of ONE function of the arguments, `wholeScore`; the 32 blocks tile
  the result array; hence the array ends holding `wholeScore` of the arguments.
-/
import proofs.«182039_j48808008351770_1_alg».proof.Proof.PairBlocks
import proofs.«182039_j48808008351770_1_alg».proof.Proof.PairCover
import proofs.«182039_j48808008351770_1_alg».proof.Proof.BlockScore

set_option maxRecDepth 16384

noncomputable section

namespace Cert.KernelIdeal.PairValue

open Cert.KernelIdeal Cert.KernelIdeal.Gen Cert.KernelIdeal.PairFrame Cert.PairSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-! ## The three row blocks of the first weight matrix, read through their rectangles -/

theorem ld_top (X : Vec Ideal S1026x512 .f32) (d k : Fin 512) : View.ld X rTop (ix2 d k) = X (ix2 (rowA d) k) := by
  show X _ = X _
  congr 1
  funext a; apply Fin.ext
  match a with
  | ⟨0, _⟩ => show 0 + 1 * d.val = d.val; omega
  | ⟨1, _⟩ => show 0 + 1 * k.val = k.val; omega

theorem ld_mid (X : Vec Ideal S1026x512 .f32) (d k : Fin 512) : View.ld X rMid (ix2 d k) = X (ix2 (rowB d) k) := by
  show X _ = X _
  congr 1
  funext a; apply Fin.ext
  match a with
  | ⟨0, _⟩ => show 512 + 1 * d.val = 512 + d.val; omega
  | ⟨1, _⟩ => show 0 + 1 * k.val = k.val; omega

theorem ld_last (X : Vec Ideal S1026x512 .f32) (q : Fin 2) (k : Fin 512) : View.ld X rLast (ix2 q k) = X (ix2 (rowC q) k) := by
  show X _ = X _
  congr 1
  funext a; apply Fin.ext
  match a with
  | ⟨0, _⟩ => show 1024 + 1 * q.val = 1024 + q.val; omega
  | ⟨1, _⟩ => show 0 + 1 * k.val = k.val; omega

/-! ## The stored block at an entry -/

/-- Entry `(0, i, j, o)` of what the body leaves in the output buffer, from the ten input buffers' contents: the
    score function of their rows. -/
theorem outBlock_apply (xFi : Vec Ideal S1x128x512 .f32) (xFj : Vec Ideal S1x32x512 .f32) (xPi : Vec Ideal S1x128x2 .f32)
    (xPj : Vec Ideal S1x32x2 .f32) (xW1 : Vec Ideal S1026x512 .f32) (xB1 : Vec Ideal S512 .f32) (xW2 : Vec Ideal S512x256 .f32)
    (xB2 : Vec Ideal S256 .f32) (xW3 : Vec Ideal S256x4 .f32) (xB3 : Vec Ideal S4 .f32) (i : Fin 128) (j : Fin 32) (o : Fin 4) :
    outBlock xFi xFj xPi xPj xW1 xB1 xW2 xB2 xW3 xB3 (ix4 (0 : Fin 1) i j o)
      = scoreOf (fun d k => xW1 (ix2 (rowA d) k)) (fun d k => xW1 (ix2 (rowB d) k)) (fun q k => xW1 (ix2 (rowC q) k))
          (fun d => xFi (ix3 (0 : Fin 1) i d)) (fun d => xFj (ix3 (0 : Fin 1) j d))
          (fun q => xPi (ix3 (0 : Fin 1) i q)) (fun q => xPj (ix3 (0 : Fin 1) j q))
          (fun k => xB1 (ix1 k)) (fun k l => xW2 (ix2 k l)) (fun l => xB2 (ix1 l)) (fun l o => xW3 (ix2 l o))
          (fun o => xB3 (ix1 o)) o := by
  unfold outBlock
  rw [View.canon_unit_zero hz4]
  rw [BlockValue.payload_apply]
  rw [show View.ld xFi rFi = xFi from View.ld_unit_zero (S := S1x128x512) hz3 _ xFi,
    show View.ld xFj rFj = xFj from View.ld_unit_zero (S := S1x32x512) hz3 _ xFj,
    show View.ld xPi rPi = xPi from View.ld_unit_zero (S := S1x128x2) hz3 _ xPi,
    show View.ld xPj rPj = xPj from View.ld_unit_zero (S := S1x32x2) hz3 _ xPj,
    show View.ld xB1 rB1 = xB1 from View.ld_unit_zero (S := S512) hz1 _ xB1,
    show View.ld xW2 rW2 = xW2 from View.ld_unit_zero (S := S512x256) hz2 _ xW2,
    show View.ld xB2 rB2 = xB2 from View.ld_unit_zero (S := S256) hz1 _ xB2,
    show View.ld xW3 rW3 = xW3 from View.ld_unit_zero (S := S256x4) hz2 _ xW3,
    show View.ld xB3 rB3 = xB3 from View.ld_unit_zero (S := S4) hz1 _ xB3,
    show (fun d k => View.ld xW1 rTop (ix2 d k)) = (fun d k => xW1 (ix2 (rowA d) k)) from
      funext fun d => funext fun k => ld_top xW1 d k,
    show (fun d k => View.ld xW1 rMid (ix2 d k)) = (fun d k => xW1 (ix2 (rowB d) k)) from
      funext fun d => funext fun k => ld_mid xW1 d k,
    show (fun q k => View.ld xW1 rLast (ix2 q k)) = (fun q k => xW1 (ix2 (rowC q) k)) from
      funext fun q => funext fun k => ld_last xW1 q k]

/-! ## What a point writes back, and the array after the run -/

/-- The whole-array score function of the arrays as the region finds them. -/
abbrev scoreArr (c : Dev nD) : S8x128x128x4.Idx → Elt Ideal .f32 :=
  wholeScore (V m c main_arg0) (V m c main_arg1) (V m c main_arg2) (V m c main_arg3) (V m c main_arg4) (V m c main_arg5)
    (V m c main_arg6) (V m c main_arg7)

/-- WHAT POINT `t` WRITES BACK is block `t` of `scoreArr`. -/
theorem flushed_eq (c : Dev nD) (t : Fin cfg0.N) :
    (dats m 0 c).flushed 10 t = ((cfg0.win 10).blk t).view.read (Elt Ideal) (scoreArr m c) := by
  show (cfg0.win 10).cut (grid0.coords t) ((dats m 0 c).after 10 t) = _
  rw [after10]
  show (outBlock (iblk m c 0 t) (iblk m c 1 t) (iblk m c 2 t) (iblk m c 3 t) (iblk m c 4 t) (iblk m c 5 t) (iblk m c 6 t)
      (iblk m c 7 t) (iblk m c 8 t) (iblk m c 9 t) : Vec Ideal S1x128x32x4 .f32)
    = (((cfg0.win 10).blk t).view.read (Elt Ideal) (scoreArr m c) : Vec Ideal S1x128x32x4 .f32)
  funext y
  obtain ⟨i, j, o, rfl⟩ : ∃ (i : Fin 128) (j : Fin 32) (o : Fin 4), y = ix4 (0 : Fin 1) i j o :=
    ⟨y 1, y 2, y 3, (eq_ix4 y).trans (congrArg (fun a : Fin 1 => ix4 a (y 1) (y 2) (y 3)) (@Subsingleton.elim (Fin 1) inferInstance (y 0) (0 : Fin 1)))⟩
  refine (outBlock_apply (iblk m c 0 t) (iblk m c 1 t) (iblk m c 2 t) (iblk m c 3 t) (iblk m c 4 t) (iblk m c 5 t) (iblk m c 6 t)
      (iblk m c 7 t) (iblk m c 8 t) (iblk m c 9 t) i j o).trans ?_
  refine Eq.trans ?_ (out_read (F := Ideal) t (scoreArr m c) i j o).symm
  show scoreOf _ _ _ _ _ _ _ _ _ _ _ _ o = scoreOf _ _ _ _ _ _ _ _ _ _ _ _ o
  congr 1
  · funext d k; exact w1_apply m c t (rowA d) k
  · funext d k; exact w1_apply m c t (rowB d) k
  · funext q k; exact w1_apply m c t (rowC q) k
  · funext d; exact fi_apply m c t i d
  · funext d; exact fj_apply m c t j d
  · funext q; exact pi_apply m c t i q
  · funext q; exact pj_apply m c t j q
  · funext k; exact b1_apply m c t k
  · funext k l; exact w2_apply m c t k l
  · funext l; exact b2_apply m c t l
  · funext l o'; exact w3_apply m c t l o'
  · funext o'; exact b3_apply m c t o'

/-- THE ARRAY after the run: `wholeScore` of the arrays as the region found them. -/
theorem final (c : Dev nD) : (dats m 0 c).arrAt 10 cfg0.N = scoreArr m c :=
  (dats m 0 c).arrAt_eq_of_cover 10 (scoreArr m c) (fun t _ => flushed_eq m c t) covered

/-! ## The run, read -/

/-- Every weakly fair execution terminates with the result array at `wholeScore` of the launched argument arrays and
    the arguments unchanged. -/
theorem run : θ_run defs (onTc (τ := τ) (main (F := Ideal))) ⟨m, fun _ => 0, ρ⟩ fun r => ∀ c : Dev nD,
      r.2.mem ((c : Thread nD τ).loc main_v0)
        = wholeScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final m c), (h c).2⟩) (run_named m ρ)

end Cert.KernelIdeal.PairValue

end
-- ==== Proof.RefScore.lean ====
/-
  The reference's result array is the whole-array score function.

  The reference slices the first weight matrix into its three row blocks, contracts the features with the first two
  over the feature axis (once for each point of a pair), broadcasts the first product along the second point's axis
  and the second along the first point's, contracts the broadcast position difference `p_i − p_j` with the last two
  rows, and adds the three terms and the bias in this order; then rectifies, contracts with `W₂`, adds `b₂`,
  rectifies, contracts with `W₃` and adds `b₃`.  Read at `(b, i, j, o)` through the generated one-operation-at-a-time
  lemmas this is `scoreOf` of the rows of the argument arrays: the very sums, in the very grouping.
-/
import proofs.«182039_j48808008351770_1_alg».proof.Proof.Gen.ReferenceIdeal.Read
import proofs.«182039_j48808008351770_1_alg».proof.Proof.PairSpec

noncomputable section

namespace Cert.ReferenceIdeal.RefValue

open Cert.ReferenceIdeal Cert.ReferenceIdeal.Gen Idealize.ShloMosaic Idealize.ShloMosaic.ValueIdx

open Cert.ReferenceIdeal.Read Cert.PairSpec

section layers

variable (x0 : (⟨S8x128x512, .f32⟩ : BufTy).Contents (Elt Ideal)) (x1 : (⟨S8x128x2, .f32⟩ : BufTy).Contents (Elt Ideal))
    (x2 : (⟨S1026x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (x6 : (⟨S256x4, .f32⟩ : BufTy).Contents (Elt Ideal)) (x7 : (⟨S4, .f32⟩ : BufTy).Contents (Elt Ideal))

/-- The first point's features against the top block of `W₁`, broadcast along the second point's axis. -/
private theorem v12_at (b : Fin 8) (i j : Fin 128) (k : Fin 512) :
    val_main_v12 (F := Ideal) x0 x2 (ix4 b i j k) = ∑ d : Fin 512, x0 (ix3 b i d) * x2 (ix2 (rowA d) k) := by
  rw [val_main_v12_apply, val_main_v10_apply, val_main_v3_apply]
  refine Finset.sum_congr rfl fun d _ => ?_
  rw [val_main_v0_apply]
  have e1 : lidx_main_v3 (idx_main_v10 (idx_main_v12 (ix4 b i j k))) d = ix3 b i d :=
    funext fun a => by match a with | ⟨0, _⟩ => rfl | ⟨1, _⟩ => rfl | ⟨2, _⟩ => rfl
  have e2 : idx_main_v0 (ridx_main_v3 (idx_main_v10 (idx_main_v12 (ix4 b i j k))) d) = ix2 (rowA d) k :=
    funext fun a => by match a with | ⟨0, _⟩ => rfl | ⟨1, _⟩ => rfl
  rw [e1, e2]

/-- The second point's features against the middle block of `W₁`, broadcast along the first point's axis. -/
private theorem v13_at (b : Fin 8) (i j : Fin 128) (k : Fin 512) :
    val_main_v13 (F := Ideal) x0 x2 (ix4 b i j k) = ∑ d : Fin 512, x0 (ix3 b j d) * x2 (ix2 (rowB d) k) := by
  rw [val_main_v13_apply, val_main_v11_apply, val_main_v4_apply]
  refine Finset.sum_congr rfl fun d _ => ?_
  rw [val_main_v1_apply]
  have e1 : lidx_main_v4 (idx_main_v11 (idx_main_v13 (ix4 b i j k))) d = ix3 b j d :=
    funext fun a => by match a with | ⟨0, _⟩ => rfl | ⟨1, _⟩ => rfl | ⟨2, _⟩ => rfl
  have e2 : idx_main_v1 (ridx_main_v4 (idx_main_v11 (idx_main_v13 (ix4 b i j k))) d) = ix2 (rowB d) k :=
    funext fun a => by match a with | ⟨0, _⟩ => rfl | ⟨1, _⟩ => rfl
  rw [e1, e2]

/-- The position difference against the last two rows of `W₁`. -/
private theorem v15_at (b : Fin 8) (i j : Fin 128) (k : Fin 512) :
    val_main_v15 (F := Ideal) x1 x2 (ix4 b i j k)
      = ∑ q : Fin 2, (x1 (ix3 b i q) - x1 (ix3 b j q)) * x2 (ix2 (rowC q) k) := by
  rw [val_main_v15_apply]
  refine Finset.sum_congr rfl fun q _ => ?_
  rw [val_main_v9_apply, val_main_v7_apply, val_main_v5_apply, val_main_v8_apply, val_main_v6_apply, val_main_v2_apply]
  have e1 : idx_main_v5 (idx_main_v7 (lidx_main_v15 (ix4 b i j k) q)) = ix3 b i q :=
    funext fun a => by match a with | ⟨0, _⟩ => rfl | ⟨1, _⟩ => rfl | ⟨2, _⟩ => rfl
  have e2 : idx_main_v6 (idx_main_v8 (lidx_main_v15 (ix4 b i j k) q)) = ix3 b j q :=
    funext fun a => by match a with | ⟨0, _⟩ => rfl | ⟨1, _⟩ => rfl | ⟨2, _⟩ => rfl
  have e3 : idx_main_v2 (ridx_main_v15 (ix4 b i j k) q) = ix2 (rowC q) k :=
    funext fun a => by match a with | ⟨0, _⟩ => rfl | ⟨1, _⟩ => rfl
  rw [e1, e2, e3]
  rfl

/-- The first bias, broadcast over batch and both points. -/
private theorem v18_at (b : Fin 8) (i j : Fin 128) (k : Fin 512) :
    val_main_v18 (F := Ideal) x3 (ix4 b i j k) = x3 (ix1 k) := by
  rw [val_main_v18_apply, val_main_v17_apply]
  have e1 : idx_main_v17 (idx_main_v18 (ix4 b i j k)) = ix1 k :=
    funext fun a => by match a with | ⟨0, _⟩ => rfl
  rw [e1]

/-- The first layer's pre-activation. -/
private theorem v19_at (b : Fin 8) (i j : Fin 128) (k : Fin 512) :
    val_main_v19 (F := Ideal) x0 x1 x2 x3 (ix4 b i j k)
      = hidden1 (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) k := by
  rw [val_main_v19_apply, val_main_v16_apply, val_main_v14_apply, v12_at, v13_at, v15_at, v18_at]
  rfl

/-- The rectified first layer. -/
private theorem v20_at (b : Fin 8) (i j : Fin 128) (k : Fin 512) :
    val_main_v20 (F := Ideal) x0 x1 x2 x3 (ix4 b i j k)
      = max (hidden1 (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) k) 0 := by
  rw [val_main_v20_apply, v19_at, val_main_call0_v0_apply, val_main_call0_cst_apply]
  show max _ (Ideal.ofBits .f32 0x00000000#32) = _
  rw [Ideal.ofBits_zero_f32]

/-- The second layer's pre-activation. -/
private theorem v24_at (b : Fin 8) (i j : Fin 128) (l : Fin 256) :
    val_main_v24 (F := Ideal) x0 x1 x2 x3 x4 x5 (ix4 b i j l)
      = hidden2 (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) (fun k l => x4 (ix2 k l)) (fun l => x5 (ix1 l)) l := by
  rw [val_main_v24_apply, val_main_v21_apply, val_main_v23_apply, val_main_v22_apply]
  have e0 : idx_main_v22 (idx_main_v23 (ix4 b i j l)) = ix1 l :=
    funext fun a => by match a with | ⟨0, _⟩ => rfl
  rw [e0]
  have hs : ∀ k : Fin 512, val_main_v20 (F := Ideal) x0 x1 x2 x3 (lidx_main_v21 (ix4 b i j l) k) * x4 (ridx_main_v21 (ix4 b i j l) k)
      = max (hidden1 (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) k) 0 * x4 (ix2 k l) := by
    intro k
    have e1 : lidx_main_v21 (ix4 b i j l) k = ix4 b i j k :=
      funext fun a => by match a with | ⟨0, _⟩ => rfl | ⟨1, _⟩ => rfl | ⟨2, _⟩ => rfl | ⟨3, _⟩ => rfl
    have e2 : ridx_main_v21 (ix4 b i j l) k = ix2 k l :=
      funext fun a => by match a with | ⟨0, _⟩ => rfl | ⟨1, _⟩ => rfl
    rw [e1, e2, v20_at]
  rw [Finset.sum_congr rfl fun k _ => hs k]
  rfl

/-- The rectified second layer. -/
private theorem v25_at (b : Fin 8) (i j : Fin 128) (l : Fin 256) :
    val_main_v25 (F := Ideal) x0 x1 x2 x3 x4 x5 (ix4 b i j l)
      = max (hidden2 (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) (fun k l => x4 (ix2 k l)) (fun l => x5 (ix1 l)) l) 0 := by
  rw [val_main_v25_apply, v24_at, val_main_call1_v0_apply, val_main_call1_cst_apply]
  show max _ (Ideal.ofBits .f32 0x00000000#32) = _
  rw [Ideal.ofBits_zero_f32]

/-- The score at `(b, i, j, o)`. -/
private theorem v29_at (b : Fin 8) (i j : Fin 128) (o : Fin 4) :
    val_main_v29 (F := Ideal) x0 x1 x2 x3 x4 x5 x6 x7 (ix4 b i j o)
      = scoreOf (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) (fun k l => x4 (ix2 k l)) (fun l => x5 (ix1 l)) (fun l o => x6 (ix2 l o))
          (fun o => x7 (ix1 o)) o := by
  rw [val_main_v29_apply, val_main_v26_apply, val_main_v28_apply, val_main_v27_apply]
  have e0 : idx_main_v27 (idx_main_v28 (ix4 b i j o)) = ix1 o :=
    funext fun a => by match a with | ⟨0, _⟩ => rfl
  rw [e0]
  have hs : ∀ l : Fin 256, val_main_v25 (F := Ideal) x0 x1 x2 x3 x4 x5 (lidx_main_v26 (ix4 b i j o) l) * x6 (ridx_main_v26 (ix4 b i j o) l)
      = max (hidden2 (fun d k => x2 (ix2 (rowA d) k)) (fun d k => x2 (ix2 (rowB d) k)) (fun q k => x2 (ix2 (rowC q) k))
          (fun d => x0 (ix3 b i d)) (fun d => x0 (ix3 b j d)) (fun q => x1 (ix3 b i q)) (fun q => x1 (ix3 b j q))
          (fun k => x3 (ix1 k)) (fun k l => x4 (ix2 k l)) (fun l => x5 (ix1 l)) l) 0 * x6 (ix2 l o) := by
    intro l
    have e1 : lidx_main_v26 (ix4 b i j o) l = ix4 b i j l :=
      funext fun a => by match a with | ⟨0, _⟩ => rfl | ⟨1, _⟩ => rfl | ⟨2, _⟩ => rfl | ⟨3, _⟩ => rfl
    have e2 : ridx_main_v26 (ix4 b i j o) l = ix2 l o :=
      funext fun a => by match a with | ⟨0, _⟩ => rfl | ⟨1, _⟩ => rfl
    rw [e1, e2, v25_at]
  rw [Finset.sum_congr rfl fun l _ => hs l]
  rfl

end layers

/-- The last stage of the reference, as a function of the eight argument arrays, is `wholeScore`. -/
theorem ref_is_wholeScore (x0 : (⟨S8x128x512, .f32⟩ : BufTy).Contents (Elt Ideal)) (x1 : (⟨S8x128x2, .f32⟩ : BufTy).Contents (Elt Ideal))
    (x2 : (⟨S1026x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (x6 : (⟨S256x4, .f32⟩ : BufTy).Contents (Elt Ideal)) (x7 : (⟨S4, .f32⟩ : BufTy).Contents (Elt Ideal)) :
    Cert.ReferenceIdeal.Read.val_main_v29 (F := Ideal) x0 x1 x2 x3 x4 x5 x6 x7
      = Cert.PairSpec.wholeScore x0 x1 x2 x3 x4 x5 x6 x7 := by
  funext y
  obtain ⟨b, i, j, o, rfl⟩ : ∃ (b : Fin 8) (i j : Fin 128) (o : Fin 4), y = ix4 b i j o := ⟨_, _, _, _, eq_ix4 y⟩
  exact v29_at x0 x1 x2 x3 x4 x5 x6 x7 b i j o

end Cert.ReferenceIdeal.RefValue

end
-- ==== Proof.lean ====
/-
  Pairwise scoring of points by a three-layer perceptron: the kernel against its reference, over the extended reals.

  For every batch `b` and ordered pair of points `(i, j)` both programs compute the score vector
      W₃ᵀ · relu (W₂ᵀ · relu (f_i · A + f_j · B + (p_i − p_j) · C + b₁) + b₂) + b₃,
  where `A`, `B`, `C` are rows 0..511, 512..1023 and 1024..1025 of the first weight matrix (so that the first layer
  of the concatenation `[f_i, f_j, p_i − p_j]` is never formed on the concatenation). The reference does it for all
  pairs at once with broadcasts and contractions over the whole arrays; the kernel does it tile by tile — a grid of
  8 batches × 4 tiles of 32 second points — flattening each tile's 128 × 32 pairs into 4096 rows for its matrix
  products. At the ideal values a change of float format is the identity and a matrix product into a zero
  accumulator is the plain sum of products, so both sides form the very same sums in the very same grouping
  (`Cert.PairSpec.wholeScore`): no law of arithmetic is needed and the precondition is never opened.

  The frames: the kernel hands its feature array, and its position array, to TWO input windows each, so the
  launch deals each such array's ownership in halves to its two windows (Proof/PairFrame.lean; the same text at the
  word level, Proof/PairFrameWords.lean); the reference's frame is its run with the result dropped. The idealization
  rewrote nothing, so `preserves` is trivial. The value claim: the kernel's result array ends at `wholeScore` of its
  arguments (Proof/PairValue.lean: what each point writes back is a block of that one function, and the blocks tile
  the array), and so does the reference's (Proof/RefScore.lean, over the one-operation-at-a-time reading of its run).
-/
import proofs.«182039_j48808008351770_1_alg».proof.Defs
import proofs.«182039_j48808008351770_1_alg».proof.Proof.Gen.Kernel
import proofs.«182039_j48808008351770_1_alg».proof.Proof.Gen.KernelIdeal
import proofs.«182039_j48808008351770_1_alg».proof.Proof.Gen.ReferenceIdeal
import proofs.«182039_j48808008351770_1_alg».proof.Proof.Gen.Pre_finite_inputs
import proofs.«182039_j48808008351770_1_alg».proof.Proof.Gen.ReferenceIdeal.Run
import proofs.«182039_j48808008351770_1_alg».proof.Proof.Gen.ReferenceIdeal.Read
import proofs.«182039_j48808008351770_1_alg».proof.Proof.PairFrame
import proofs.«182039_j48808008351770_1_alg».proof.Proof.PairFrameWords
import proofs.«182039_j48808008351770_1_alg».proof.Proof.PairValue
import proofs.«182039_j48808008351770_1_alg».proof.Proof.RefScore

noncomputable section

namespace Cert.Proof

open Idealize.ShloMosaic Idealize.SL.Sem

/-- The kernel as printed runs to the end and keeps its arguments. -/
theorem frame_kernel : @Cert.frame_Kernel Cert.Kernel.Gen.facts Cert.Pre_finite_inputs.Gen.facts :=
  fun m ρ _ => Cert.Kernel.PairFrame.frame m ρ

/-- So does the idealized kernel. -/
theorem frame_kernelIdeal : @Cert.frame_KernelIdeal Cert.KernelIdeal.Gen.facts Cert.Pre_finite_inputs.Gen.facts :=
  fun m ρ _ => Cert.KernelIdeal.PairFrame.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both idealized programs end with their result arrays at
    `wholeScore` of the arguments: the kernel's by the blocks its grid points write back, the reference's by reading
    its operations one at a time. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.PairSpec.wholeScore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_is_wholeScore]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
